-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x256x256 : Shape := ⟨4, ![1, 128, 256, 256]⟩
abbrev S65536x9 : Shape := ⟨2, ![65536, 9]⟩
abbrev S_ : Shape := ⟨0, ![]⟩

class Facts : Prop where
  bcast_S_S1x128x256x256 : S_.BroadcastsInDim S1x128x256x256 (![] : Fin 0 → Fin S1x128x256x256.rank)
  reducesTo_S1x128x256x256_S_d0_1_2_3 : S1x128x256x256.ReducesTo [0, 1, 2, 3] S_
  h_S_ : 0 < S_.numel
  bcast_S_S65536x9 : S_.BroadcastsInDim S65536x9 (![] : Fin 0 → Fin S65536x9.rank)
  reducesTo_S65536x9_S_d0_1 : S65536x9.ReducesTo [0, 1] S_

variable [Facts]

def fn {F : FTy → Type} [FloatOps F] (main_arg0 : FVec F S1x128x256x256 .f32) (main_arg1 : FVec F S65536x9 .f32) : IVec S_ 1 :=
  let main_v0 : FVec F S1x128x256x256 .f32 := Host.absf main_arg0
  let main_cst : FVec F S_ .f32 := constant S_ .f32 0x7F800000#32
  let main_v1 : FVec F S1x128x256x256 .f32 := broadcastInDim S1x128x256x256 ![] bcast_S_S1x128x256x256 main_cst
  let main_v2 : IVec S1x128x256x256 1 := cmpf .olt main_v0 main_v1
  let main_c : IVec S_ 1 := constantI S_ 1 1#1
  let main_v3 : IVec S_ 1 := (fun x v => Host.reduce IntOp.andi x v reducesTo_S1x128x256x256_S_d0_1_2_3 h_S_) main_v2 main_c
  let main_v4 : FVec F S65536x9 .f32 := Host.absf main_arg1
  let main_cst_0 : FVec F S_ .f32 := constant S_ .f32 0x7F800000#32
  let main_v5 : FVec F S65536x9 .f32 := broadcastInDim S65536x9 ![] bcast_S_S65536x9 main_cst_0
  let main_v6 : IVec S65536x9 1 := cmpf .olt main_v4 main_v5
  let main_c_1 : IVec S_ 1 := constantI S_ 1 1#1
  let main_v7 : IVec S_ 1 := (fun x v => Host.reduce IntOp.andi x v reducesTo_S65536x9_S_d0_1 h_S_) main_v6 main_c_1
  let main_v8 : IVec S_ 1 := andi main_v3 main_v7
  main_v8
-- ==== Kernel.lean ====
abbrev S1x128x256x256 : Shape := ⟨4, ![1, 128, 256, 256]⟩
abbrev S65536x9 : Shape := ⟨2, ![65536, 9]⟩
abbrev S32 : Shape := ⟨1, ![32]⟩
abbrev S128x256x256 : Shape := ⟨3, ![128, 256, 256]⟩
abbrev S_ : Shape := ⟨0, ![]⟩
abbrev S128x258x256 : Shape := ⟨3, ![128, 258, 256]⟩
abbrev S32x1 : Shape := ⟨2, ![32, 1]⟩
abbrev S128x32x256 : Shape := ⟨3, ![128, 32, 256]⟩
abbrev S32x128x256 : Shape := ⟨3, ![32, 128, 256]⟩
abbrev S256x256x9 : Shape := ⟨3, ![256, 256, 9]⟩
abbrev S9x256x256 : Shape := ⟨3, ![9, 256, 256]⟩
abbrev S128x8x256 : Shape := ⟨3, ![128, 8, 256]⟩
abbrev S1x128x256 : Shape := ⟨3, ![1, 128, 256]⟩
abbrev S4x256x256 : Shape := ⟨3, ![4, 256, 256]⟩
abbrev S128x256 : Shape := ⟨2, ![128, 256]⟩
abbrev S128x1x256 : Shape := ⟨3, ![128, 1, 256]⟩
abbrev S128x10x256 : Shape := ⟨3, ![128, 10, 256]⟩
abbrev S128x10x1 : Shape := ⟨3, ![128, 10, 1]⟩
abbrev S128x10x255 : Shape := ⟨3, ![128, 10, 255]⟩
abbrev S9x128x256 : Shape := ⟨3, ![9, 128, 256]⟩
abbrev S9x128x128x2 : Shape := ⟨4, ![9, 128, 128, 2]⟩
abbrev S9x128x2x128 : Shape := ⟨4, ![9, 128, 2, 128]⟩

abbrev nBuf : Space → Nat
  | .hbm => 28
  | .vmem => 9
  | .smem => 0
  | _ => 0

abbrev bufTy : (tb : Table) → Fin (tcTables nBuf tb) → BufTy
  | .hbm, ⟨0, _⟩ => ⟨S1x128x256x256, .f32⟩
  | .hbm, ⟨1, _⟩ => ⟨S65536x9, .f32⟩
  | .hbm, ⟨2, _⟩ => ⟨S32, .i32⟩
  | .hbm, ⟨3, _⟩ => ⟨S32, .i1⟩
  | .hbm, ⟨4, _⟩ => ⟨S32, .i32⟩
  | .hbm, ⟨5, _⟩ => ⟨S32, .i1⟩
  | .hbm, ⟨6, _⟩ => ⟨S128x256x256, .f32⟩
  | .hbm, ⟨7, _⟩ => ⟨S_, .i32⟩
  | .hbm, ⟨8, _⟩ => ⟨S_, .f32⟩
  | .hbm, ⟨9, _⟩ => ⟨S128x258x256, .f32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S128x32x256, .f32⟩
  | .hbm, ⟨16, _⟩ => ⟨S32x128x256, .f32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S128x32x256, .f32⟩
  | .hbm, ⟨23, _⟩ => ⟨S32x128x256, .f32⟩
  | .hbm, ⟨24, _⟩ => ⟨S256x256x9, .f32⟩
  | .hbm, ⟨25, _⟩ => ⟨S9x256x256, .f32⟩
  | .hbm, ⟨26, _⟩ => ⟨S128x256x256, .f32⟩
  | .hbm, ⟨27, _⟩ => ⟨S1x128x256x256, .f32⟩
  | .local _ .vmem, ⟨0, _⟩ => ⟨S128x8x256, .f32⟩
  | .local _ .vmem, ⟨1, _⟩ => ⟨S128x8x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S9x256x256, .f32⟩
  | .local _ .vmem, ⟨7, _⟩ => ⟨S4x256x256, .f32⟩
  | .local _ .vmem, ⟨8, _⟩ => ⟨S4x256x256, .f32⟩
  | _, _ => ⟨S1x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_c_3 : Ref sig .tc := ⟨.hbm, 7, rfl⟩
abbrev main_call0_v0 : Ref sig .tc := ⟨.hbm, 8, rfl⟩
abbrev main_v1 : Ref sig .tc := ⟨.hbm, 9, rfl⟩
abbrev main_c_4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x128x256x256_S128x256x256 : S1x128x256x256.ShapeCasts S128x256x256
  pads_S128x256x256_S128x258x256_000_110_000 : S128x256x256.Pads (![0, 1, 0] : Fin 3 → Nat) ![0, 1, 0] ![0, 0, 0] S128x258x256
  h_S_ : 0 < S_.numel
  bcast_S_S32 : S_.BroadcastsInDim S32 (![] : Fin 0 → Fin S32.rank)
  bcast_S32_S32x1_0 : S32.BroadcastsInDim S32x1 (![0] : Fin 1 → Fin S32x1.rank)
  transposes_S128x32x256_S32x128x256_1_0_2 : S128x32x256.Transposes [1, 0, 2] S32x128x256
  shapeCasts_S65536x9_S256x256x9 : S65536x9.ShapeCasts S256x256x9
  transposes_S256x256x9_S9x256x256_2_0_1 : S256x256x9.Transposes [2, 0, 1] S9x256x256
  inb_S128x8x256_S128x8x256_0_0_0 : ∀ a, (![0, 0, 0] : Fin 3 → Nat) a + S128x8x256.size a ≤ S128x8x256.size a
  h_S128x8x256 : 0 < S128x8x256.numel
  shapeCasts_S128x8x256_S128x8x256 : S128x8x256.ShapeCasts S128x8x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S128x1x256 : S128x256.ShapeCasts S128x1x256
  concatenates_S128x1x256_S128x8x256_S128x1x256_S128x10x256_d1 : Shape.Concatenates [S128x1x256, S128x8x256, S128x1x256] S128x10x256 1
  slices_S128x10x256_o0_0_0_S128x10x255 : S128x10x256.Slices ![0, 0, 0] S128x10x255
  concatenates_S128x10x1_S128x10x255_S128x10x256_d2 : Shape.Concatenates [S128x10x1, S128x10x255] S128x10x256 2
  slices_S128x10x256_o0_0_1_S128x10x255 : S128x10x256.Slices ![0, 0, 1] S128x10x255
  concatenates_S128x10x255_S128x10x1_S128x10x256_d2 : Shape.Concatenates [S128x10x255, S128x10x1] S128x10x256 2
  slices_S128x10x256_o0_0_0_S128x1x256 : S128x10x256.Slices ![0, 0, 0] S128x1x256
  shapeCasts_S128x1x256_S128x256 : S128x1x256.ShapeCasts S128x256
  slices_S128x10x256_o0_1_0_S128x1x256 : S128x10x256.Slices ![0, 1, 0] S128x1x256
  slices_S128x10x256_o0_2_0_S128x1x256 : S128x10x256.Slices ![0, 2, 0] S128x1x256
  shapeCasts_S128x256_S1x128x256 : S128x256.ShapeCasts S1x128x256
  concatenates_S1x128x256_S1x128x256_S1x128x256_S1x128x256_S1x128x256_S1x128x256_S1x128x256_S1x128x256_S1x128x256_S9x128x256_d0 : Shape.Concatenates [S1x128x256, S1x128x256, S1x128x256, S1x128x256, S1x128x256, S1x128x256, S1x128x256, S1x128x256, S1x128x256] S9x128x256 0
  shapeCasts_S9x128x256_S9x128x128x2 : S9x128x256.ShapeCasts S9x128x128x2
  transposes_S9x128x128x2_p0_2_3_1_S9x128x2x128 : S9x128x128x2.Transposes [0, 2, 3, 1] S9x128x2x128
  shapeCasts_S9x128x2x128_S9x128x256 : S9x128x2x128.ShapeCasts S9x128x256
  inb_S9x256x256_S9x128x256_0_0_0 : ∀ a, (![0, 0, 0] : Fin 3 → Nat) a + S9x128x256.size a ≤ S9x256x256.size a
  h_S9x128x256 : 0 < S9x128x256.numel
  shapeCasts_S9x128x256_S9x128x256 : S9x128x256.ShapeCasts S9x128x256
  reduces_S9x128x256_S128x256 : S9x128x256.Reduces [0] S128x256
  inb_S4x256x256_S1x128x256_0_0_0 : ∀ a, (![0, 0, 0] : Fin 3 → Nat) a + S1x128x256.size a ≤ S4x256x256.size a
  slices_S128x10x256_o0_3_0_S128x1x256 : S128x10x256.Slices ![0, 3, 0] S128x1x256
  inb_S9x256x256_S9x128x256_0_128_0 : ∀ a, (![0, 128, 0] : Fin 3 → Nat) a + S9x128x256.size a ≤ S9x256x256.size a
  inb_S4x256x256_S1x128x256_0_128_0 : ∀ a, (![0, 128, 0] : Fin 3 → Nat) a + S1x128x256.size a ≤ S4x256x256.size a
  slices_S128x10x256_o0_4_0_S128x1x256 : S128x10x256.Slices ![0, 4, 0] S128x1x256
  inb_S4x256x256_S1x128x256_1_0_0 : ∀ a, (![1, 0, 0] : Fin 3 → Nat) a + S1x128x256.size a ≤ S4x256x256.size a
  slices_S128x10x256_o0_5_0_S128x1x256 : S128x10x256.Slices ![0, 5, 0] S128x1x256
  inb_S4x256x256_S1x128x256_1_128_0 : ∀ a, (![1, 128, 0] : Fin 3 → Nat) a + S1x128x256.size a ≤ S4x256x256.size a
  slices_S128x10x256_o0_6_0_S128x1x256 : S128x10x256.Slices ![0, 6, 0] S128x1x256
  inb_S4x256x256_S1x128x256_2_0_0 : ∀ a, (![2, 0, 0] : Fin 3 → Nat) a + S1x128x256.size a ≤ S4x256x256.size a
  slices_S128x10x256_o0_7_0_S128x1x256 : S128x10x256.Slices ![0, 7, 0] S128x1x256
  inb_S4x256x256_S1x128x256_2_128_0 : ∀ a, (![2, 128, 0] : Fin 3 → Nat) a + S1x128x256.size a ≤ S4x256x256.size a
  slices_S128x10x256_o0_8_0_S128x1x256 : S128x10x256.Slices ![0, 8, 0] S128x1x256
  inb_S4x256x256_S1x128x256_3_0_0 : ∀ a, (![3, 0, 0] : Fin 3 → Nat) a + S1x128x256.size a ≤ S4x256x256.size a
  slices_S128x10x256_o0_9_0_S128x1x256 : S128x10x256.Slices ![0, 9, 0] S128x1x256
  inb_S4x256x256_S1x128x256_3_128_0 : ∀ a, (![3, 128, 0] : Fin 3 → Nat) a + S1x128x256.size a ≤ S4x256x256.size a
  bcast_S128x256x256_S1x128x256x256_1_2_3 : S128x256x256.BroadcastsInDim S1x128x256x256 (![1, 2, 3] : Fin 3 → Fin S1x128x256x256.rank)
  gather_S128x258x256_S32x1_S128x32x256_02_1_n_n_1_1_1281256_wf : GatherDims.WF S128x258x256 S32x1 S128x32x256 [0, 2] [1] [] [1] [] 1 ![128, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x256.size a ≤ S128x256x256.size a
  hwx0_0 : ∀ i : grid0.Coords, EltTy.bits .f32 = 32 ∨ (Rect.block (s := S128x256x256) S128x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S32x128x256.size a
  hwx0_1 : ∀ i : grid0.Coords, EltTy.bits .f32 = 32 ∨ (Rect.block (s := S32x128x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S32x128x256.size a
  hwx0_2 : ∀ i : grid0.Coords, EltTy.bits .f32 = 32 ∨ (Rect.block (s := S32x128x256) S1x128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x256x256.size a ≤ S9x256x256.size a
  hwx0_3 : ∀ i : grid0.Coords, EltTy.bits .f32 = 32 ∨ (Rect.block (s := S9x256x256) S9x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S128x256x256.size a
  hwx0_4 : ∀ i : grid0.Coords, EltTy.bits .f32 = 32 ∨ (Rect.block (s := S128x256x256) S4x256x256.size (cc0_transform_4 i) (hinb0_4 i)).WholeWords (EltTy.packing .f32)

variable [Facts₀]

def gather_S128x258x256_S32x1_S128x32x256_02_1_n_n_1_1_1281256 : GatherDims S128x258x256 S32x1 S128x32x256 where
  offsetDims := [0, 2]
  collapsedSliceDims := [1]
  operandBatchingDims := []
  startIndicesBatchingDims := []
  startIndexMap := [1]
  indexVectorDim := 1
  sliceSizes := ![128, 1, 256]
  wf := gather_S128x258x256_S32x1_S128x32x256_02_1_n_n_1_1_1281256_wf

abbrev win0_0 : Pipeline.Window sig grid0 :=
  Pipeline.Window.ofSpec (Memref.whole main_v0) S128x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S9x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x128x256x256 : Shape := ⟨4, ![1, 128, 256, 256]⟩
abbrev S65536x9 : Shape := ⟨2, ![65536, 9]⟩
abbrev S_ : Shape := ⟨0, ![]⟩
abbrev S1x128x258x258 : Shape := ⟨4, ![1, 128, 258, 258]⟩
abbrev S1x128x1x256x256 : Shape := ⟨5, ![1, 128, 1, 256, 256]⟩
abbrev S1x128x9x256x256 : Shape := ⟨5, ![1, 128, 9, 256, 256]⟩
abbrev S1x1152x65536 : Shape := ⟨3, ![1, 1152, 65536]⟩
abbrev S1x65536x1152 : Shape := ⟨3, ![1, 65536, 1152]⟩
abbrev S1x128x65536x9 : Shape := ⟨4, ![1, 128, 65536, 9]⟩
abbrev S1x1x65536x9 : Shape := ⟨4, ![1, 1, 65536, 9]⟩
abbrev S1x128x65536 : Shape := ⟨3, ![1, 128, 65536]⟩

abbrev nBuf : Space → Nat
  | .hbm => 33
  | .vmem => 0
  | .smem => 0
  | _ => 0

abbrev bufTy : (tb : Table) → Fin (tcTables nBuf tb) → BufTy
  | .hbm, ⟨0, _⟩ => ⟨S1x128x256x256, .f32⟩
  | .hbm, ⟨1, _⟩ => ⟨S65536x9, .f32⟩
  | .hbm, ⟨2, _⟩ => ⟨S_, .i32⟩
  | .hbm, ⟨3, _⟩ => ⟨S_, .f32⟩
  | .hbm, ⟨4, _⟩ => ⟨S1x128x258x258, .f32⟩
  | .hbm, ⟨5, _⟩ => ⟨S1x128x256x256, .f32⟩
  | .hbm, ⟨6, _⟩ => ⟨S1x128x256x256, .f32⟩
  | .hbm, ⟨7, _⟩ => ⟨S1x128x256x256, .f32⟩
  | .hbm, ⟨8, _⟩ => ⟨S1x128x256x256, .f32⟩
  | .hbm, ⟨9, _⟩ => ⟨S1x128x256x256, .f32⟩
  | .hbm, ⟨10, _⟩ => ⟨S1x128x256x256, .f32⟩
  | .hbm, ⟨11, _⟩ => ⟨S1x128x256x256, .f32⟩
  | .hbm, ⟨12, _⟩ => ⟨S1x128x256x256, .f32⟩
  | .hbm, ⟨13, _⟩ => ⟨S1x128x256x256, .f32⟩
  | .hbm, ⟨14, _⟩ => ⟨S1x128x1x256x256, .f32⟩
  | .hbm, ⟨15, _⟩ => ⟨S1x128x1x256x256, .f32⟩
  | .hbm, ⟨16, _⟩ => ⟨S1x128x1x256x256, .f32⟩
  | .hbm, ⟨17, _⟩ => ⟨S1x128x1x256x256, .f32⟩
  | .hbm, ⟨18, _⟩ => ⟨S1x128x1x256x256, .f32⟩
  | .hbm, ⟨19, _⟩ => ⟨S1x128x1x256x256, .f32⟩
  | .hbm, ⟨20, _⟩ => ⟨S1x128x1x256x256, .f32⟩
  | .hbm, ⟨21, _⟩ => ⟨S1x128x1x256x256, .f32⟩
  | .hbm, ⟨22, _⟩ => ⟨S1x128x1x256x256, .f32⟩
  | .hbm, ⟨23, _⟩ => ⟨S1x128x9x256x256, .f32⟩
  | .hbm, ⟨24, _⟩ => ⟨S1x1152x65536, .f32⟩
  | .hbm, ⟨25, _⟩ => ⟨S1x65536x1152, .f32⟩
  | .hbm, ⟨26, _⟩ => ⟨S1x128x65536x9, .f32⟩
  | .hbm, ⟨27, _⟩ => ⟨S1x1x65536x9, .f32⟩
  | .hbm, ⟨28, _⟩ => ⟨S1x128x65536x9, .f32⟩
  | .hbm, ⟨29, _⟩ => ⟨S1x128x65536x9, .f32⟩
  | .hbm, ⟨30, _⟩ => ⟨S_, .f32⟩
  | .hbm, ⟨31, _⟩ => ⟨S1x128x65536, .f32⟩
  | .hbm, ⟨32, _⟩ => ⟨S1x128x256x256, .f32⟩
  | _, _ => ⟨S1x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]

class Facts₀ : Prop where
  pads_S1x128x256x256_S1x128x258x258_000_000_110_110 : S1x128x256x256.Pads (![0, 0, 1, 1] : Fin 4 → Nat) ![0, 0, 1, 1] ![0, 0, 0, 0] S1x128x258x258
  h_S_ : 0 < S_.numel
  slices_S1x128x258x258_S1x128x256x256_0_0_0_0 : S1x128x258x258.Slices ![0, 0, 0, 0] S1x128x256x256
  slices_S1x128x258x258_S1x128x256x256_0_0_0_1 : S1x128x258x258.Slices ![0, 0, 0, 1] S1x128x256x256
  slices_S1x128x258x258_S1x128x256x256_0_0_0_2 : S1x128x258x258.Slices ![0, 0, 0, 2] S1x128x256x256
  slices_S1x128x258x258_S1x128x256x256_0_0_1_0 : S1x128x258x258.Slices ![0, 0, 1, 0] S1x128x256x256
  slices_S1x128x258x258_S1x128x256x256_0_0_1_1 : S1x128x258x258.Slices ![0, 0, 1, 1] S1x128x256x256
  slices_S1x128x258x258_S1x128x256x256_0_0_1_2 : S1x128x258x258.Slices ![0, 0, 1, 2] S1x128x256x256
  slices_S1x128x258x258_S1x128x256x256_0_0_2_0 : S1x128x258x258.Slices ![0, 0, 2, 0] S1x128x256x256
  slices_S1x128x258x258_S1x128x256x256_0_0_2_1 : S1x128x258x258.Slices ![0, 0, 2, 1] S1x128x256x256
  slices_S1x128x258x258_S1x128x256x256_0_0_2_2 : S1x128x258x258.Slices ![0, 0, 2, 2] S1x128x256x256
  bcast_S1x128x256x256_S1x128x1x256x256_0_1_3_4 : S1x128x256x256.BroadcastsInDim S1x128x1x256x256 (![0, 1, 3, 4] : Fin 4 → Fin S1x128x1x256x256.rank)
  concatenates_S1x128x1x256x256_S1x128x1x256x256_S1x128x1x256x256_S1x128x1x256x256_S1x128x1x256x256_S1x128x1x256x256_S1x128x1x256x256_S1x128x1x256x256_S1x128x1x256x256_S1x128x9x256x256_d2 : Shape.Concatenates [S1x128x1x256x256, S1x128x1x256x256, S1x128x1x256x256, S1x128x1x256x256, S1x128x1x256x256, S1x128x1x256x256, S1x128x1x256x256, S1x128x1x256x256, S1x128x1x256x256] S1x128x9x256x256 2
  shapeCasts_S1x128x9x256x256_S1x1152x65536 : S1x128x9x256x256.ShapeCasts S1x1152x65536
  transposes_S1x1152x65536_S1x65536x1152_0_2_1 : S1x1152x65536.Transposes [0, 2, 1] S1x65536x1152
  shapeCasts_S1x65536x1152_S1x128x65536x9 : S1x65536x1152.ShapeCasts S1x128x65536x9
  bcast_S65536x9_S1x1x65536x9_2_3 : S65536x9.BroadcastsInDim S1x1x65536x9 (![2, 3] : Fin 2 → Fin S1x1x65536x9.rank)
  bcast_S1x1x65536x9_S1x128x65536x9_0_1_2_3 : S1x1x65536x9.BroadcastsInDim S1x128x65536x9 (![0, 1, 2, 3] : Fin 4 → Fin S1x128x65536x9.rank)
  reducesTo_S1x128x65536x9_S1x128x65536_d3 : S1x128x65536x9.ReducesTo [3] S1x128x65536
  shapeCasts_S1x128x65536_S1x128x256x256 : S1x128x65536.ShapeCasts S1x128x256x256

variable [Facts₀]

class Facts : Prop extends Facts₀ where

variable [Facts]
-- ==== Proof.Spec.lean ====
/-
  The mathematics both programs compute, stated once over plain coordinates.

  The activation x : [1, 128, 256, 256] is read through a one-pixel zero border (`border`): entry (c, i, j) of the
  bordered [128, 258, 258] image is x[0, c, i-1, j-1] for 1 ≤ i, j ≤ 256 and 0 on the rim.
  The operator is a 3×3 stencil with a weight of its own per output location, applied after a raw re-reading of the
  unfolded patches that interleaves channel and space: output (co, oh, ow) reads input channel ow % 128 around row
  2·co + oh / 128 and column 2·(oh % 128) + ow / 128, and sums the nine taps k = 3·(row offset) + (column offset)
  against weights[oh·256 + ow, k] (`conv`).
  `halo` is the same bordered reading of ONE ten-row window of the image: rows 0 and 9 are the two rows borrowed
  from the neighbouring windows, rows 1 to 8 the window's own eight, and a zero column stands on each side.
-/
import Idealize.ShloMosaic.PureOps.Ideal
import Idealize.ShloMosaic.Lib.ValueIdx

noncomputable section

open scoped BigOperators

namespace Cert.Conv

open Idealize.ShloMosaic Idealize.ShloMosaic.ValueIdx

/-- The activation's shape. -/
abbrev SX : Shape := ⟨4, ![1, 128, 256, 256]⟩
/-- The weights' shape: one row of nine taps per output location. -/
abbrev SW : Shape := ⟨2, ![65536, 9]⟩
/-- The result without its leading unit axis. -/
abbrev SO : Shape := ⟨3, ![128, 256, 256]⟩
/-- A window's own eight rows of every channel. -/
abbrev SB : Shape := ⟨3, ![128, 8, 256]⟩
/-- One borrowed row of every channel. -/
abbrev SH : Shape := ⟨3, ![1, 128, 256]⟩
/-- The weights laid out tap-major. -/
abbrev ST : Shape := ⟨3, ![9, 256, 256]⟩

/-- One of three by a number: the first at 0, the second at 1, the third otherwise. -/
def pick3 {α : Type} (d : Nat) (a b c : α) : α := if d = 0 then a else if d = 1 then b else c

/-- A rank-3 array read at natural-number coordinates: its entry when all three are in range, 0 otherwise. -/
def rd3 {n0 n1 n2 : Nat} (v : (⟨3, ![n0, n1, n2]⟩ : Shape).Idx → EReal) (a b c : Nat) : EReal :=
  if h : a < n0 ∧ b < n1 ∧ c < n2 then v (ix3 (⟨a, h.1⟩ : Fin n0) (⟨b, h.2.1⟩ : Fin n1) (⟨c, h.2.2⟩ : Fin n2)) else 0

/-- In range, the reader is the entry. -/
theorem rd3_ix3 {n0 n1 n2 : Nat} (v : (⟨3, ![n0, n1, n2]⟩ : Shape).Idx → EReal) (a : Fin n0) (b : Fin n1) (c : Fin n2) :
    rd3 v a.val b.val c.val = v (ix3 a b c) := by
  unfold rd3; rw [dif_pos ⟨a.isLt, b.isLt, c.isLt⟩]

/-- The activation behind a one-pixel zero border: (c, i, j) of the bordered image. -/
def border (x : SX.Idx → EReal) (c i j : Nat) : EReal :=
  if h : c < 128 ∧ 1 ≤ i ∧ i ≤ 256 ∧ 1 ≤ j ∧ j ≤ 256 then
    x (ix4 (0 : Fin 1) (⟨c, h.1⟩ : Fin 128) (⟨i - 1, by omega⟩ : Fin 256) (⟨j - 1, by omega⟩ : Fin 256))
  else 0

/-- The weight of tap k at output location l. -/
def wt (w : SW.Idx → EReal) (l : Nat) (k : Fin 9) : EReal :=
  if h : l < 65536 then w (ix2 (⟨l, h⟩ : Fin 65536) k) else 0

/-- The interleaved 3×3 stencil at output (co, oh, ow). -/
def conv (x : SX.Idx → EReal) (w : SW.Idx → EReal) (co oh ow : Nat) : EReal :=
  ∑ k : Fin 9, border x (ow % 128) (2 * co + oh / 128 + k.val / 3) (2 * (oh % 128) + ow / 128 + k.val % 3)
    * wt w (oh * 256 + ow) k

/-- The whole result, [1, 128, 256, 256]. -/
def G (x : SX.Idx → EReal) (w : SW.Idx → EReal) : SX.Idx → EReal :=
  fun i => conv x w (i 1).val (i 2).val (i 3).val

/-- The result without the unit axis, [128, 256, 256]. -/
def G3 (x : SX.Idx → EReal) (w : SW.Idx → EReal) : SO.Idx → EReal :=
  fun i => conv x w (i 0).val (i 1).val (i 2).val

/-- One ten-row window behind its zero columns: (c, r, j) with r the row of the window (0 and 9 borrowed) and j the
    bordered column. -/
def halo (x0 : SB.Idx → EReal) (x1 x2 : SH.Idx → EReal) (c r j : Nat) : EReal :=
  if h : c < 128 ∧ r < 10 ∧ 1 ≤ j ∧ j ≤ 256 then
    (if h0 : r = 0 then x1 (ix3 (0 : Fin 1) (⟨c, h.1⟩ : Fin 128) (⟨j - 1, by omega⟩ : Fin 256))
     else if h9 : r = 9 then x2 (ix3 (0 : Fin 1) (⟨c, h.1⟩ : Fin 128) (⟨j - 1, by omega⟩ : Fin 256))
     else x0 (ix3 (⟨c, h.1⟩ : Fin 128) (⟨r - 1, by omega⟩ : Fin 8) (⟨j - 1, by omega⟩ : Fin 256)))
  else 0

/-- The nine-tap sum of one window at local output (tt, oh, ow): what a grid step leaves at that entry of its block. -/
def convWin (x0 : SB.Idx → EReal) (x1 x2 : SH.Idx → EReal) (x3 : ST.Idx → EReal) (tt oh ow : Nat) : EReal :=
  ∑ k : Fin 9, halo x0 x1 x2 (ow % 128) (2 * tt + oh / 128 + k.val / 3) (2 * (oh % 128) + ow / 128 + k.val % 3)
    * (if h : oh < 256 ∧ ow < 256 then x3 (ix3 k (⟨oh, h.1⟩ : Fin 256) (⟨ow, h.2⟩ : Fin 256)) else 0)

end Cert.Conv

end
-- ==== Proof.BodyDefs.lean ====
/-
  Every store of the kernel body writes the same expression of the ten-row window, at a different row: the nine
  taps (three column shifts of three consecutive rows) stacked, the channel axis and the column axis interleaved,
  multiplied by a slab of the weights and summed over the taps. `rowOut` is that expression with the three rows as
  parameters; each store's value is an instance of it, by unfolding.
-/
import proofs.«158289_j47132971106931_1_alg».proof.KernelIdeal
import proofs.«158289_j47132971106931_1_alg».proof.Proof.Gen.KernelIdeal.Skeleton

noncomputable section

namespace Cert.KernelIdeal.Body

open Cert.KernelIdeal Cert.KernelIdeal.Gen Idealize.ShloMosaic Idealize.ShloMosaic.TcCoe

variable {F : FTy → Type} [FloatOps F]

/-- Row R of a ten-row window as a [1, 128, 256] slab. -/
def tapRow (R : Nat) (h : S128x10x256.Slices ![0, R, 0] S128x1x256) (v : FVec F S128x10x256 .f32) : FVec F S1x128x256 .f32 :=
  shapeCast S1x128x256 (shapeCast S128x256 (extractStridedSlice S128x1x256 ![0, R, 0] v h) shapeCasts_S128x1x256_S128x256) shapeCasts_S128x256_S1x128x256

/-- The nine taps of rows R0, R1, R2 (of the window shifted right, as it is, shifted left), interleaved, weighted and summed. -/
def rowOut (R0 R1 R2 : Nat) (h0 : S128x10x256.Slices ![0, R0, 0] S128x1x256) (h1 : S128x10x256.Slices ![0, R1, 0] S128x1x256)
    (h2 : S128x10x256.Slices ![0, R2, 0] S128x1x256) (v8 v11 v14 : FVec F S128x10x256 .f32) (wv : Vec F S9x128x256 .f32) :
    FVec F S1x128x256 .f32 :=
  shapeCast S1x128x256
    (multiReduction .add [0] S128x256
      (mulf
        (shapeCast S9x128x256
          (transpose S9x128x2x128 [0, 2, 3, 1]
            (shapeCast S9x128x128x2
              (concatenate S9x128x256 0 [⟨S1x128x256, tapRow R0 h0 v11⟩, ⟨S1x128x256, tapRow R0 h0 v8⟩, ⟨S1x128x256, tapRow R0 h0 v14⟩,
                ⟨S1x128x256, tapRow R1 h1 v11⟩, ⟨S1x128x256, tapRow R1 h1 v8⟩, ⟨S1x128x256, tapRow R1 h1 v14⟩,
                ⟨S1x128x256, tapRow R2 h2 v11⟩, ⟨S1x128x256, tapRow R2 h2 v8⟩, ⟨S1x128x256, tapRow R2 h2 v14⟩]
                concatenates_S1x128x256_S1x128x256_S1x128x256_S1x128x256_S1x128x256_S1x128x256_S1x128x256_S1x128x256_S1x128x256_S9x128x256_d0)
              shapeCasts_S9x128x256_S9x128x128x2)
            transposes_S9x128x128x2_p0_2_3_1_S9x128x2x128)
          shapeCasts_S9x128x2x128_S9x128x256)
        (shapeCast S9x128x256 wv shapeCasts_S9x128x256_S9x128x256))
      0x00000000#32 reduces_S9x128x256_S128x256 (.inl rfl) rfl)
    shapeCasts_S128x256_S1x128x256

/-- The store at rows 0, 1, 2 of the window. -/
theorem store0_eq (x0 : Vec F S128x8x256 .f32) (x1 x2 : Vec F S1x128x256 .f32) (wv : Vec F S9x128x256 .f32) :
    k0_pay6 (k0_pay5 x0 x1 x2) wv
      = rowOut 0 1 2 slices_S128x10x256_o0_0_0_S128x1x256 slices_S128x10x256_o0_1_0_S128x1x256 slices_S128x10x256_o0_2_0_S128x1x256 (k0_pay2 x0 x1 x2) (k0_pay3 x0 x1 x2) (k0_pay4 x0 x1 x2) wv := rfl

/-- The store at rows 1, 2, 3 of the window. -/
theorem store1_eq (x0 : Vec F S128x8x256 .f32) (x1 x2 : Vec F S1x128x256 .f32) (wv : Vec F S9x128x256 .f32) :
    k0_pay7 (k0_pay2 x0 x1 x2) (k0_pay3 x0 x1 x2) (k0_pay4 x0 x1 x2) wv
      = rowOut 1 2 3 slices_S128x10x256_o0_1_0_S128x1x256 slices_S128x10x256_o0_2_0_S128x1x256 slices_S128x10x256_o0_3_0_S128x1x256 (k0_pay2 x0 x1 x2) (k0_pay3 x0 x1 x2) (k0_pay4 x0 x1 x2) wv := rfl

/-- The store at rows 2, 3, 4 of the window. -/
theorem store2_eq (x0 : Vec F S128x8x256 .f32) (x1 x2 : Vec F S1x128x256 .f32) (wv : Vec F S9x128x256 .f32) :
    k0_pay9 (k0_pay2 x0 x1 x2) (k0_pay3 x0 x1 x2) (k0_pay4 x0 x1 x2) (k0_pay8 (k0_pay3 x0 x1 x2)) wv
      = rowOut 2 3 4 slices_S128x10x256_o0_2_0_S128x1x256 slices_S128x10x256_o0_3_0_S128x1x256 slices_S128x10x256_o0_4_0_S128x1x256 (k0_pay2 x0 x1 x2) (k0_pay3 x0 x1 x2) (k0_pay4 x0 x1 x2) wv := rfl

/-- The store at rows 3, 4, 5 of the window. -/
theorem store3_eq (x0 : Vec F S128x8x256 .f32) (x1 x2 : Vec F S1x128x256 .f32) (wv : Vec F S9x128x256 .f32) :
    k0_pay18 (k0_pay4 x0 x1 x2) (k0_pay10 (k0_pay3 x0 x1 x2)) (k0_pay11 (k0_pay2 x0 x1 x2)) (k0_pay12 (k0_pay4 x0 x1 x2)) (k0_pay13 (k0_pay3 x0 x1 x2)) (k0_pay14 (k0_pay2 x0 x1 x2)) (k0_pay15 (k0_pay4 x0 x1 x2)) (k0_pay16 (k0_pay3 x0 x1 x2)) (k0_pay17 (k0_pay2 x0 x1 x2)) wv
      = rowOut 3 4 5 slices_S128x10x256_o0_3_0_S128x1x256 slices_S128x10x256_o0_4_0_S128x1x256 slices_S128x10x256_o0_5_0_S128x1x256 (k0_pay2 x0 x1 x2) (k0_pay3 x0 x1 x2) (k0_pay4 x0 x1 x2) wv := rfl

/-- The store at rows 4, 5, 6 of the window. -/
theorem store4_eq (x0 : Vec F S128x8x256 .f32) (x1 x2 : Vec F S1x128x256 .f32) (wv : Vec F S9x128x256 .f32) :
    k0_pay20 (k0_pay19 (k0_pay2 x0 x1 x2) (k0_pay3 x0 x1 x2) (k0_pay4 x0 x1 x2)) wv
      = rowOut 4 5 6 slices_S128x10x256_o0_4_0_S128x1x256 slices_S128x10x256_o0_5_0_S128x1x256 slices_S128x10x256_o0_6_0_S128x1x256 (k0_pay2 x0 x1 x2) (k0_pay3 x0 x1 x2) (k0_pay4 x0 x1 x2) wv := rfl

/-- The store at rows 5, 6, 7 of the window. -/
theorem store5_eq (x0 : Vec F S128x8x256 .f32) (x1 x2 : Vec F S1x128x256 .f32) (wv : Vec F S9x128x256 .f32) :
    k0_pay22 (k0_pay21 (k0_pay2 x0 x1 x2) (k0_pay3 x0 x1 x2) (k0_pay4 x0 x1 x2) wv)
      = rowOut 5 6 7 slices_S128x10x256_o0_5_0_S128x1x256 slices_S128x10x256_o0_6_0_S128x1x256 slices_S128x10x256_o0_7_0_S128x1x256 (k0_pay2 x0 x1 x2) (k0_pay3 x0 x1 x2) (k0_pay4 x0 x1 x2) wv := rfl

/-- The store at rows 6, 7, 8 of the window. -/
theorem store6_eq (x0 : Vec F S128x8x256 .f32) (x1 x2 : Vec F S1x128x256 .f32) (wv : Vec F S9x128x256 .f32) :
    k0_pay23 (k0_pay2 x0 x1 x2) (k0_pay3 x0 x1 x2) (k0_pay4 x0 x1 x2) wv
      = rowOut 6 7 8 slices_S128x10x256_o0_6_0_S128x1x256 slices_S128x10x256_o0_7_0_S128x1x256 slices_S128x10x256_o0_8_0_S128x1x256 (k0_pay2 x0 x1 x2) (k0_pay3 x0 x1 x2) (k0_pay4 x0 x1 x2) wv := rfl

/-- The store at rows 7, 8, 9 of the window. -/
theorem store7_eq (x0 : Vec F S128x8x256 .f32) (x1 x2 : Vec F S1x128x256 .f32) (wv : Vec F S9x128x256 .f32) :
    k0_pay1 (k0_pay2 x0 x1 x2) (k0_pay3 x0 x1 x2) (k0_pay4 x0 x1 x2) (k0_pay24 (k0_pay3 x0 x1 x2)) (k0_pay25 (k0_pay2 x0 x1 x2)) (k0_pay26 (k0_pay4 x0 x1 x2)) (k0_pay27 (k0_pay3 x0 x1 x2)) (k0_pay28 (k0_pay2 x0 x1 x2)) (k0_pay29 (k0_pay4 x0 x1 x2)) wv
      = rowOut 7 8 9 slices_S128x10x256_o0_7_0_S128x1x256 slices_S128x10x256_o0_8_0_S128x1x256 slices_S128x10x256_o0_9_0_S128x1x256 (k0_pay2 x0 x1 x2) (k0_pay3 x0 x1 x2) (k0_pay4 x0 x1 x2) wv := rfl

end Cert.KernelIdeal.Body

end
-- ==== Proof.TapSum.lean ====
/-
  One store's value read at an entry: the stacked taps are re-read as [9, 128, 128, 2], the channel axis moved
  last and the two column halves merged with it, so entry (k, a, q) of the interleaved stack is tap k at channel
  q % 128 and column 2a + q / 128; the product with the weight slab summed over the nine taps follows.
-/
import proofs.«158289_j47132971106931_1_alg».proof.Proof.Spec
import proofs.«158289_j47132971106931_1_alg».proof.Proof.BodyDefs
import Idealize.ShloMosaic.Lib.Pipeline.Value
import Idealize.ShloMosaic.PureOps.Ideal.Laws

noncomputable section

open scoped BigOperators

namespace Cert.KernelIdeal.Body

open Cert.KernelIdeal Cert.KernelIdeal.Gen Cert.Conv Idealize.ShloMosaic Idealize.ShloMosaic.TcCoe Idealize.ShloMosaic.ValueIdx

/-- The row offset of a one-row slice of the ten-row window is below ten. -/
private theorem row_lt (R : Nat) (h : S128x10x256.Slices ![0, R, 0] S128x1x256) : R < 10 := by
  obtain ⟨hr, hs⟩ := h
  have := hs (1 : Fin 3)
  simpa using this

/-- Row R of the window as a slab, read at (0, c, j): the window at (c, R, j). -/
private theorem tapRow_apply (R : Nat) (h : S128x10x256.Slices ![0, R, 0] S128x1x256) (v : FVec Ideal S128x10x256 .f32)
    (c : Fin 128) (j : Fin 256) : tapRow (F := Ideal) R h v (ix3 (0 : Fin 1) c j) = rd3 v c.val R j.val := by
  have hR : R < 10 := row_lt R h
  unfold tapRow
  refine (shapeCast_apply _ _ (ix3 (0 : Fin 1) c j) (ix2 c j) ?_).trans ?_
  · rw [Shape.rowMajor_val_two, Shape.rowMajor_val_three]
    show c.val * 256 + j.val = ((0 : Nat) * 128 + c.val) * 256 + j.val
    omega
  refine (shapeCast_apply _ _ (ix2 c j) (ix3 c (0 : Fin 1) j) ?_).trans ?_
  · rw [Shape.rowMajor_val_two, Shape.rowMajor_val_three]
    show (c.val * 1 + (0 : Nat)) * 256 + j.val = c.val * 256 + j.val
    omega
  refine (extractStridedSlice_apply _ v h (ix3 c (0 : Fin 1) j) (ix3 c (⟨R, hR⟩ : Fin 10) j) ?_).trans ?_
  · intro a
    match a with
    | ⟨0, _⟩ => show c.val = 0 + c.val; omega
    | ⟨1, _⟩ => show R = R + 0; omega
    | ⟨2, _⟩ => show j.val = 0 + j.val; omega
  unfold rd3
  rw [dif_pos ⟨c.isLt, hR, j.isLt⟩]

/-- The interleave: a [9, 128, 256] stack re-read as [9, 128, 128, 2], its channel axis moved last and merged with
    the column half, read at (k, a, q): the stack at tap k, channel q % 128 and column 2a + q / 128. -/
private theorem interleave_apply {α : Type} (X : S9x128x256.Idx → α) (hs1 : S9x128x256.ShapeCasts S9x128x128x2)
    (ht : S9x128x128x2.Transposes [0, 2, 3, 1] S9x128x2x128) (hs2 : S9x128x2x128.ShapeCasts S9x128x256)
    (k : Fin 9) (a : Fin 128) (q : Fin 256) :
    shapeCast S9x128x256 (transpose S9x128x2x128 [0, 2, 3, 1] (shapeCast S9x128x128x2 X hs1) ht) hs2 (ix3 k a q)
      = X (ix3 k (⟨q.val % 128, Nat.mod_lt _ (by omega)⟩ : Fin 128) (⟨2 * a.val + q.val / 128, by have := a.isLt; have := q.isLt; omega⟩ : Fin 256)) := by
  have ha := a.isLt
  have hq := q.isLt
  have hk := k.isLt
  refine (shapeCast_apply _ hs2 (ix3 k a q)
    (ix4 k a (⟨q.val / 128, by omega⟩ : Fin 2) (⟨q.val % 128, Nat.mod_lt _ (by omega)⟩ : Fin 128)) ?_).trans ?_
  · rw [Shape.rowMajor_val_three, Shape.rowMajor_val_four]
    show ((k.val * 128 + a.val) * 2 + q.val / 128) * 128 + q.val % 128 = (k.val * 128 + a.val) * 256 + q.val
    omega
  refine (transpose_apply [0, 2, 3, 1] _ ht
    (ix4 k a (⟨q.val / 128, by omega⟩ : Fin 2) (⟨q.val % 128, Nat.mod_lt _ (by omega)⟩ : Fin 128))
    (ix4 k (⟨q.val % 128, Nat.mod_lt _ (by omega)⟩ : Fin 128) a (⟨q.val / 128, by omega⟩ : Fin 2)) ?_).trans ?_
  · intro b
    match b with
    | ⟨0, _⟩ => rfl
    | ⟨1, _⟩ => rfl
    | ⟨2, _⟩ => rfl
    | ⟨3, _⟩ => rfl
  refine (shapeCast_apply X hs1
    (ix4 k (⟨q.val % 128, Nat.mod_lt _ (by omega)⟩ : Fin 128) a (⟨q.val / 128, by omega⟩ : Fin 2))
    (ix3 k (⟨q.val % 128, Nat.mod_lt _ (by omega)⟩ : Fin 128) (⟨2 * a.val + q.val / 128, by omega⟩ : Fin 256)) ?_)
  rw [Shape.rowMajor_val_three, Shape.rowMajor_val_four]
  show (k.val * 128 + q.val % 128) * 256 + (2 * a.val + q.val / 128) = ((k.val * 128 + q.val % 128) * 128 + a.val) * 2 + q.val / 128
  omega

/-- One of nine by a number below nine. -/
private def pick9 {α : Type} (k : Nat) (s0 s1 s2 s3 s4 s5 s6 s7 s8 : α) : α :=
  pick3 (k / 3) (pick3 (k % 3) s0 s1 s2) (pick3 (k % 3) s3 s4 s5) (pick3 (k % 3) s6 s7 s8)

/-- The list of nine unit slabs. -/
private def stack9 {α : Type} (s0 s1 s2 s3 s4 s5 s6 s7 s8 : S1x128x256.Idx → α) : List ((s : Shape) × (s.Idx → α)) :=
  [⟨S1x128x256, s0⟩, ⟨S1x128x256, s1⟩, ⟨S1x128x256, s2⟩, ⟨S1x128x256, s3⟩, ⟨S1x128x256, s4⟩,
    ⟨S1x128x256, s5⟩, ⟨S1x128x256, s6⟩, ⟨S1x128x256, s7⟩, ⟨S1x128x256, s8⟩]

/-- Piece n of a stack of nine unit slabs along the leading axis, read at (n, c, j): that piece at (0, c, j). -/
private theorem stack_piece {α : Type} (xs : List ((s : Shape) × (s.Idx → α)))
    (hc : Shape.Concatenates (xs.map (·.1)) S9x128x256 0) (n : Nat) (hn : n < xs.length) (sk : S1x128x256.Idx → α)
    (hxk : xs[n] = ⟨S1x128x256, sk⟩)
    (hpre : (((xs.take n).map (·.1)).map fun s => if h : s.rank = S9x128x256.rank then s.size ((0 : Fin S9x128x256.rank).cast h.symm) else 0).sum = n)
    (hn9 : n < 9) (c : Fin 128) (j : Fin 256) :
    concatenate S9x128x256 0 xs hc (ix3 (⟨n, hn9⟩ : Fin 9) c j) = sk (ix3 (0 : Fin 1) c j) := by
  refine concatenate_apply_piece 0 xs hc _ n hn S1x128x256 sk hxk rfl n hpre (ix3 (0 : Fin 1) c j) ?_ (by show n + 0 = n; omega)
  intro b hb
  match b with
  | ⟨0, _⟩ => exact absurd rfl hb
  | ⟨1, _⟩ => rfl
  | ⟨2, _⟩ => rfl

/-- Nine unit slabs stacked along the leading axis, read at (k, c, j): slab k at (0, c, j). -/
private theorem stack_apply {α : Type} (s0 s1 s2 s3 s4 s5 s6 s7 s8 : S1x128x256.Idx → α)
    (hc : Shape.Concatenates [S1x128x256, S1x128x256, S1x128x256, S1x128x256, S1x128x256, S1x128x256, S1x128x256, S1x128x256, S1x128x256] S9x128x256 0)
    (k : Fin 9) (c : Fin 128) (j : Fin 256) :
    concatenate S9x128x256 0 [⟨S1x128x256, s0⟩, ⟨S1x128x256, s1⟩, ⟨S1x128x256, s2⟩, ⟨S1x128x256, s3⟩, ⟨S1x128x256, s4⟩,
        ⟨S1x128x256, s5⟩, ⟨S1x128x256, s6⟩, ⟨S1x128x256, s7⟩, ⟨S1x128x256, s8⟩] hc (ix3 k c j)
      = pick9 k.val s0 s1 s2 s3 s4 s5 s6 s7 s8 (ix3 (0 : Fin 1) c j) := by
  match k with
  | ⟨0, h⟩ =>
    show _ = pick9 0 s0 s1 s2 s3 s4 s5 s6 s7 s8 (ix3 (0 : Fin 1) c j)
    exact stack_piece (stack9 s0 s1 s2 s3 s4 s5 s6 s7 s8) hc 0 (by show (0 : Nat) < 9; omega) s0 rfl rfl h c j
  | ⟨1, h⟩ =>
    show _ = pick9 1 s0 s1 s2 s3 s4 s5 s6 s7 s8 (ix3 (0 : Fin 1) c j)
    exact stack_piece (stack9 s0 s1 s2 s3 s4 s5 s6 s7 s8) hc 1 (by show (1 : Nat) < 9; omega) s1 rfl rfl h c j
  | ⟨2, h⟩ =>
    show _ = pick9 2 s0 s1 s2 s3 s4 s5 s6 s7 s8 (ix3 (0 : Fin 1) c j)
    exact stack_piece (stack9 s0 s1 s2 s3 s4 s5 s6 s7 s8) hc 2 (by show (2 : Nat) < 9; omega) s2 rfl rfl h c j
  | ⟨3, h⟩ =>
    show _ = pick9 3 s0 s1 s2 s3 s4 s5 s6 s7 s8 (ix3 (0 : Fin 1) c j)
    exact stack_piece (stack9 s0 s1 s2 s3 s4 s5 s6 s7 s8) hc 3 (by show (3 : Nat) < 9; omega) s3 rfl rfl h c j
  | ⟨4, h⟩ =>
    show _ = pick9 4 s0 s1 s2 s3 s4 s5 s6 s7 s8 (ix3 (0 : Fin 1) c j)
    exact stack_piece (stack9 s0 s1 s2 s3 s4 s5 s6 s7 s8) hc 4 (by show (4 : Nat) < 9; omega) s4 rfl rfl h c j
  | ⟨5, h⟩ =>
    show _ = pick9 5 s0 s1 s2 s3 s4 s5 s6 s7 s8 (ix3 (0 : Fin 1) c j)
    exact stack_piece (stack9 s0 s1 s2 s3 s4 s5 s6 s7 s8) hc 5 (by show (5 : Nat) < 9; omega) s5 rfl rfl h c j
  | ⟨6, h⟩ =>
    show _ = pick9 6 s0 s1 s2 s3 s4 s5 s6 s7 s8 (ix3 (0 : Fin 1) c j)
    exact stack_piece (stack9 s0 s1 s2 s3 s4 s5 s6 s7 s8) hc 6 (by show (6 : Nat) < 9; omega) s6 rfl rfl h c j
  | ⟨7, h⟩ =>
    show _ = pick9 7 s0 s1 s2 s3 s4 s5 s6 s7 s8 (ix3 (0 : Fin 1) c j)
    exact stack_piece (stack9 s0 s1 s2 s3 s4 s5 s6 s7 s8) hc 7 (by show (7 : Nat) < 9; omega) s7 rfl rfl h c j
  | ⟨8, h⟩ =>
    show _ = pick9 8 s0 s1 s2 s3 s4 s5 s6 s7 s8 (ix3 (0 : Fin 1) c j)
    exact stack_piece (stack9 s0 s1 s2 s3 s4 s5 s6 s7 s8) hc 8 (by show (8 : Nat) < 9; omega) s8 rfl rfl h c j

/-- `rowOut` at entry (0, a, q): the sum over the nine taps k of the window shifted by k % 3 (right, none, left) at
    channel q % 128, row R(k / 3) and column 2a + q / 128, times the weight slab at (k, a, q). -/
theorem rowOut_apply (R0 R1 R2 : Nat) (h0 : S128x10x256.Slices ![0, R0, 0] S128x1x256) (h1 : S128x10x256.Slices ![0, R1, 0] S128x1x256)
    (h2 : S128x10x256.Slices ![0, R2, 0] S128x1x256) (v8 v11 v14 : FVec Ideal S128x10x256 .f32) (wv : Vec Ideal S9x128x256 .f32)
    (a : Fin 128) (q : Fin 256) :
    rowOut (F := Ideal) R0 R1 R2 h0 h1 h2 v8 v11 v14 wv (ix3 (0 : Fin 1) a q)
      = ∑ k : Fin 9, rd3 (pick3 (k.val % 3) v11 v8 v14) (q.val % 128) (pick3 (k.val / 3) R0 R1 R2) (2 * a.val + q.val / 128)
          * (wv (ix3 k a q) : EReal) := by
  have ha := a.isLt
  have hq := q.isLt
  unfold rowOut
  refine (shapeCast_apply _ _ (ix3 (0 : Fin 1) a q) (ix2 a q) ?_).trans ?_
  · rw [Shape.rowMajor_val_two, Shape.rowMajor_val_three]
    show a.val * 256 + q.val = ((0 : Nat) * 128 + a.val) * 256 + q.val
    omega
  refine (Ideal.multiReduction_add_single _ _ reduces_S9x128x256_S128x256 _ _ (ix2 a q)).trans ?_
  refine Finset.sum_congr rfl fun (k : Fin 9) _ => ?_
  have hl : reduces_S9x128x256_S128x256.lift (ix2 a q) k = ix3 k a q :=
    funext fun d => Fin.ext (by match d with | ⟨0, _⟩ => rfl | ⟨1, _⟩ => rfl | ⟨2, _⟩ => rfl)
  rw [hl, mulf_apply]
  congr 1
  · refine (interleave_apply _ _ _ _ k a q).trans ?_
    refine (stack_apply _ _ _ _ _ _ _ _ _ _ k _ _).trans ?_
    match k with
    | ⟨0, _⟩ =>
      show (pick9 0 _ _ _ _ _ _ _ _ _ : FVec Ideal S1x128x256 .f32) _ = rd3 (pick3 (0 % 3) v11 v8 v14) _ (pick3 (0 / 3) R0 R1 R2) _
      exact tapRow_apply R0 h0 v11 _ _
    | ⟨1, _⟩ =>
      show (pick9 1 _ _ _ _ _ _ _ _ _ : FVec Ideal S1x128x256 .f32) _ = rd3 (pick3 (1 % 3) v11 v8 v14) _ (pick3 (1 / 3) R0 R1 R2) _
      exact tapRow_apply R0 h0 v8 _ _
    | ⟨2, _⟩ =>
      show (pick9 2 _ _ _ _ _ _ _ _ _ : FVec Ideal S1x128x256 .f32) _ = rd3 (pick3 (2 % 3) v11 v8 v14) _ (pick3 (2 / 3) R0 R1 R2) _
      exact tapRow_apply R0 h0 v14 _ _
    | ⟨3, _⟩ =>
      show (pick9 3 _ _ _ _ _ _ _ _ _ : FVec Ideal S1x128x256 .f32) _ = rd3 (pick3 (3 % 3) v11 v8 v14) _ (pick3 (3 / 3) R0 R1 R2) _
      exact tapRow_apply R1 h1 v11 _ _
    | ⟨4, _⟩ =>
      show (pick9 4 _ _ _ _ _ _ _ _ _ : FVec Ideal S1x128x256 .f32) _ = rd3 (pick3 (4 % 3) v11 v8 v14) _ (pick3 (4 / 3) R0 R1 R2) _
      exact tapRow_apply R1 h1 v8 _ _
    | ⟨5, _⟩ =>
      show (pick9 5 _ _ _ _ _ _ _ _ _ : FVec Ideal S1x128x256 .f32) _ = rd3 (pick3 (5 % 3) v11 v8 v14) _ (pick3 (5 / 3) R0 R1 R2) _
      exact tapRow_apply R1 h1 v14 _ _
    | ⟨6, _⟩ =>
      show (pick9 6 _ _ _ _ _ _ _ _ _ : FVec Ideal S1x128x256 .f32) _ = rd3 (pick3 (6 % 3) v11 v8 v14) _ (pick3 (6 / 3) R0 R1 R2) _
      exact tapRow_apply R2 h2 v11 _ _
    | ⟨7, _⟩ =>
      show (pick9 7 _ _ _ _ _ _ _ _ _ : FVec Ideal S1x128x256 .f32) _ = rd3 (pick3 (7 % 3) v11 v8 v14) _ (pick3 (7 / 3) R0 R1 R2) _
      exact tapRow_apply R2 h2 v8 _ _
    | ⟨8, _⟩ =>
      show (pick9 8 _ _ _ _ _ _ _ _ _ : FVec Ideal S1x128x256 .f32) _ = rd3 (pick3 (8 % 3) v11 v8 v14) _ (pick3 (8 / 3) R0 R1 R2) _
      exact tapRow_apply R2 h2 v14 _ _
  · exact shapeCast_apply wv _ (ix3 k a q) (ix3 k a q) rfl

end Cert.KernelIdeal.Body

end
-- ==== Proof.Halo.lean ====
/-
  The ten-row window a grid step assembles, and its two column shifts, read at an entry: the window is the upper
  borrowed row, the block's eight rows and the lower borrowed row stacked; the shift to the right puts a zero column
  first, the shift to the left a zero column last. In bordered columns all three are `Cert.Conv.halo`.
-/
import proofs.«158289_j47132971106931_1_alg».proof.Proof.Spec
import proofs.«158289_j47132971106931_1_alg».proof.Proof.BodyDefs
import Idealize.ShloMosaic.Lib.Pipeline.Value
import Idealize.ShloMosaic.PureOps.Ideal.Laws

noncomputable section

open scoped BigOperators

namespace Cert.KernelIdeal.Body

open Cert.KernelIdeal Cert.KernelIdeal.Gen Cert.Conv Idealize.ShloMosaic Idealize.ShloMosaic.TcCoe Idealize.ShloMosaic.ValueIdx

/-- The borrowed upper row of the window. -/
private theorem pay2_row0 (x0 : Vec Ideal S128x8x256 .f32) (x1 x2 : Vec Ideal S1x128x256 .f32) (c : Fin 128) (j : Fin 256) :
    k0_pay2 (F := Ideal) x0 x1 x2 (ix3 c (0 : Fin 10) j) = x1 (ix3 (0 : Fin 1) c j) := by
  unfold k0_pay2
  refine Eq.trans (concatenate_apply_piece (1 : Fin 3) _ _ (ix3 c (0 : Fin 10) j) 0 (by simp) S128x1x256 _ rfl rfl 0 rfl
    (ix3 c (0 : Fin 1) j) ?_ ?_) ?_
  · intro b hb
    match b with
    | ⟨0, _⟩ => rfl
    | ⟨1, _⟩ => exact absurd rfl hb
    | ⟨2, _⟩ => rfl
  · rfl
  refine Eq.trans (shapeCast_apply _ _ (ix3 c (0 : Fin 1) j) (ix2 c j) ?_) ?_
  · rw [Shape.rowMajor_val_two, Shape.rowMajor_val_three]
    show c.val * 256 + j.val = (c.val * 1 + 0) * 256 + j.val
    omega
  refine shapeCast_apply _ _ (ix2 c j) (ix3 (0 : Fin 1) c j) ?_
  · rw [Shape.rowMajor_val_two, Shape.rowMajor_val_three]
    show (0 * 128 + c.val) * 256 + j.val = c.val * 256 + j.val
    omega

/-- The borrowed lower row of the window. -/
private theorem pay2_row9 (x0 : Vec Ideal S128x8x256 .f32) (x1 x2 : Vec Ideal S1x128x256 .f32) (c : Fin 128) (j : Fin 256) :
    k0_pay2 (F := Ideal) x0 x1 x2 (ix3 c (9 : Fin 10) j) = x2 (ix3 (0 : Fin 1) c j) := by
  unfold k0_pay2
  refine Eq.trans (concatenate_apply_piece (1 : Fin 3) _ _ (ix3 c (9 : Fin 10) j) 2 (by simp) S128x1x256 _ rfl rfl 9 rfl
    (ix3 c (0 : Fin 1) j) ?_ ?_) ?_
  · intro b hb
    match b with
    | ⟨0, _⟩ => rfl
    | ⟨1, _⟩ => exact absurd rfl hb
    | ⟨2, _⟩ => rfl
  · rfl
  refine Eq.trans (shapeCast_apply _ _ (ix3 c (0 : Fin 1) j) (ix2 c j) ?_) ?_
  · rw [Shape.rowMajor_val_two, Shape.rowMajor_val_three]
    show c.val * 256 + j.val = (c.val * 1 + 0) * 256 + j.val
    omega
  refine shapeCast_apply _ _ (ix2 c j) (ix3 (0 : Fin 1) c j) ?_
  · rw [Shape.rowMajor_val_two, Shape.rowMajor_val_three]
    show (0 * 128 + c.val) * 256 + j.val = c.val * 256 + j.val
    omega

/-- The window's own eight rows. -/
private theorem pay2_rowMid (x0 : Vec Ideal S128x8x256 .f32) (x1 x2 : Vec Ideal S1x128x256 .f32) (c : Fin 128) (r : Fin 10) (j : Fin 256)
    (h1 : 1 ≤ r.val) (h8 : r.val ≤ 8) :
    k0_pay2 (F := Ideal) x0 x1 x2 (ix3 c r j) = x0 (ix3 c (⟨r.val - 1, by omega⟩ : Fin 8) j) := by
  unfold k0_pay2
  refine Eq.trans (concatenate_apply_piece (1 : Fin 3) _ _ (ix3 c r j) 1 (by simp) S128x8x256 _ rfl rfl 1 rfl
    (ix3 c (⟨r.val - 1, by omega⟩ : Fin 8) j) ?_ ?_) ?_
  · intro b hb
    match b with
    | ⟨0, _⟩ => rfl
    | ⟨1, _⟩ => exact absurd rfl hb
    | ⟨2, _⟩ => rfl
  · show 1 + (r.val - 1) = r.val
    omega
  rw [shapeCast_self]

/-- The window as it is: column j is bordered column j + 1. -/
theorem pay2_rd (x0 : Vec Ideal S128x8x256 .f32) (x1 x2 : Vec Ideal S1x128x256 .f32) (c r j : Nat) (hc : c < 128) (hr : r < 10) (hj : j < 256) :
    rd3 (k0_pay2 (F := Ideal) x0 x1 x2) c r j = halo x0 x1 x2 c r (j + 1) := by
  unfold rd3
  rw [dif_pos ⟨hc, hr, hj⟩]
  unfold halo
  rw [dif_pos ⟨hc, hr, by omega, by omega⟩]
  by_cases h0 : r = 0
  · subst h0
    rw [dif_pos rfl]
    exact pay2_row0 x0 x1 x2 ⟨c, hc⟩ ⟨j, hj⟩
  · rw [dif_neg h0]
    by_cases h9 : r = 9
    · subst h9
      rw [dif_pos rfl]
      exact pay2_row9 x0 x1 x2 ⟨c, hc⟩ ⟨j, hj⟩
    · rw [dif_neg h9]
      exact pay2_rowMid x0 x1 x2 ⟨c, hc⟩ ⟨r, hr⟩ ⟨j, hj⟩ (by show 1 ≤ r; omega) (by show r ≤ 8; omega)

/-- The window shifted right by one column: column j is bordered column j (zero at j = 0). -/
theorem pay3_rd (x0 : Vec Ideal S128x8x256 .f32) (x1 x2 : Vec Ideal S1x128x256 .f32) (c r j : Nat) (hc : c < 128) (hr : r < 10) (hj : j < 256) :
    rd3 (k0_pay3 (F := Ideal) x0 x1 x2) c r j = halo x0 x1 x2 c r j := by
  unfold rd3
  rw [dif_pos ⟨hc, hr, hj⟩]
  unfold k0_pay3
  by_cases h0 : j = 0
  · subst h0
    refine Eq.trans (concatenate_pair_apply_left (t := S128x10x256) (s₁ := S128x10x1) (s₂ := S128x10x255) (2 : Fin 3) _ _ _ _ rfl
      (ix3 (⟨c, hc⟩ : Fin 128) (⟨r, hr⟩ : Fin 10) (0 : Fin 1)) ?_) ?_
    · intro b
      match b with
      | ⟨0, _⟩ => rfl
      | ⟨1, _⟩ => rfl
      | ⟨2, _⟩ => rfl
    · rw [broadcast_apply]
      unfold halo
      rw [dif_neg (by omega)]
      exact Ideal.ofBits_zero_f32
  · have hj1 : j - 1 < 255 := by omega
    refine Eq.trans (concatenate_pair_apply_right (t := S128x10x256) (s₁ := S128x10x1) (s₂ := S128x10x255) (2 : Fin 3) _ _ _ _ rfl rfl
      (ix3 (⟨c, hc⟩ : Fin 128) (⟨r, hr⟩ : Fin 10) (⟨j - 1, hj1⟩ : Fin 255)) ?_ ?_) ?_
    · intro b hb
      match b with
      | ⟨0, _⟩ => rfl
      | ⟨1, _⟩ => rfl
      | ⟨2, _⟩ => exact absurd rfl hb
    · show j - 1 + 1 = j
      omega
    refine Eq.trans (extractStridedSlice_apply _ _ _ _
      (ix3 (⟨c, hc⟩ : Fin 128) (⟨r, hr⟩ : Fin 10) (⟨j - 1, by omega⟩ : Fin 256)) ?_) ?_
    · intro a
      match a with
      | ⟨0, _⟩ => show c = 0 + c; omega
      | ⟨1, _⟩ => show r = 0 + r; omega
      | ⟨2, _⟩ => show j - 1 = 0 + (j - 1); omega
    have h2 := pay2_rd x0 x1 x2 c r (j - 1) hc hr (by omega)
    unfold rd3 at h2
    rw [dif_pos ⟨hc, hr, by omega⟩] at h2
    rw [h2, show j - 1 + 1 = j by omega]

/-- The window shifted left by one column: column j is bordered column j + 2 (zero at j = 255). -/
theorem pay4_rd (x0 : Vec Ideal S128x8x256 .f32) (x1 x2 : Vec Ideal S1x128x256 .f32) (c r j : Nat) (hc : c < 128) (hr : r < 10) (hj : j < 256) :
    rd3 (k0_pay4 (F := Ideal) x0 x1 x2) c r j = halo x0 x1 x2 c r (j + 2) := by
  unfold rd3
  rw [dif_pos ⟨hc, hr, hj⟩]
  unfold k0_pay4
  by_cases h255 : j = 255
  · subst h255
    refine Eq.trans (concatenate_pair_apply_right (t := S128x10x256) (s₁ := S128x10x255) (s₂ := S128x10x1) (2 : Fin 3) _ _ _ _ rfl rfl
      (ix3 (⟨c, hc⟩ : Fin 128) (⟨r, hr⟩ : Fin 10) (0 : Fin 1)) ?_ ?_) ?_
    · intro b hb
      match b with
      | ⟨0, _⟩ => rfl
      | ⟨1, _⟩ => rfl
      | ⟨2, _⟩ => exact absurd rfl hb
    · rfl
    · rw [broadcast_apply]
      unfold halo
      rw [dif_neg (by omega)]
      exact Ideal.ofBits_zero_f32
  · have hj1 : j < 255 := by omega
    refine Eq.trans (concatenate_pair_apply_left (t := S128x10x256) (s₁ := S128x10x255) (s₂ := S128x10x1) (2 : Fin 3) _ _ _ _ rfl
      (ix3 (⟨c, hc⟩ : Fin 128) (⟨r, hr⟩ : Fin 10) (⟨j, hj1⟩ : Fin 255)) ?_) ?_
    · intro b
      match b with
      | ⟨0, _⟩ => rfl
      | ⟨1, _⟩ => rfl
      | ⟨2, _⟩ => rfl
    refine Eq.trans (extractStridedSlice_apply _ _ _ _
      (ix3 (⟨c, hc⟩ : Fin 128) (⟨r, hr⟩ : Fin 10) (⟨j + 1, by omega⟩ : Fin 256)) ?_) ?_
    · intro a
      match a with
      | ⟨0, _⟩ => show c = 0 + c; omega
      | ⟨1, _⟩ => show r = 0 + r; omega
      | ⟨2, _⟩ => show j + 1 = 1 + j; omega
    have h2 := pay2_rd x0 x1 x2 c r (j + 1) hc hr (by omega)
    unfold rd3 at h2
    rw [dif_pos ⟨hc, hr, by omega⟩] at h2
    exact h2

end Cert.KernelIdeal.Body

end
-- ==== Proof.Stores.lean ====
/-
  What one grid step leaves in its output block, as one function of the block's entries: every store writes, at its
  128 rows of one output channel, the nine-tap sum of the ten-row window (`Cert.Conv.convWin`); the eight stores
  tile the block, so the block is that function everywhere.
-/
import proofs.«158289_j47132971106931_1_alg».proof.Proof.Spec
import proofs.«158289_j47132971106931_1_alg».proof.Proof.BodyDefs
import proofs.«158289_j47132971106931_1_alg».proof.Proof.TapSum
import proofs.«158289_j47132971106931_1_alg».proof.Proof.Halo
import proofs.«158289_j47132971106931_1_alg».proof.Proof.Gen.KernelIdeal.Frame
import Idealize.ShloMosaic.Lib.Pipeline.Value

noncomputable section

open scoped BigOperators

namespace Cert.KernelIdeal.Body

open Cert.KernelIdeal Cert.KernelIdeal.Gen Cert.Conv Idealize.ShloMosaic Idealize.ShloMosaic.TcCoe Idealize.ShloMosaic.ValueIdx

theorem pick3_zero {α : Type} (a b c : α) : pick3 0 a b c = a := if_pos rfl
theorem pick3_one {α : Type} (a b c : α) : pick3 1 a b c = b := by unfold pick3; rw [if_neg (by decide), if_pos rfl]
theorem pick3_two {α : Type} (a b c : α) : pick3 2 a b c = c := by unfold pick3; rw [if_neg (by decide), if_neg (by decide)]

/-- Three consecutive numbers picked by 0, 1, 2. -/
theorem pick3_succ (d R : Nat) (hd : d < 3) : pick3 d R (R + 1) (R + 2) = R + d := by
  interval_cases d
  · exact pick3_zero _ _ _
  · exact pick3_one _ _ _
  · exact pick3_two _ _ _

variable (x0 : Vec Ideal S128x8x256 .f32) (x1 x2 : Vec Ideal S1x128x256 .f32) (x3 : Vec Ideal S9x256x256 .f32)

/-- The window shifted right, as it is, shifted left, picked by d = 0, 1, 2, reads bordered column j + d. -/
theorem shifted_rd (d c r j : Nat) (hd : d < 3) (hc : c < 128) (hr : r < 10) (hj : j < 256) :
    rd3 (pick3 d (k0_pay3 (F := Ideal) x0 x1 x2) (k0_pay2 (F := Ideal) x0 x1 x2) (k0_pay4 (F := Ideal) x0 x1 x2)) c r j = halo x0 x1 x2 c r (j + d) := by
  interval_cases d
  · rw [pick3_zero]; exact pay3_rd x0 x1 x2 c r j hc hr hj
  · rw [pick3_one]; exact pay2_rd x0 x1 x2 c r j hc hr hj
  · rw [pick3_two]; exact pay4_rd x0 x1 x2 c r j hc hr hj

/-- The block a grid step leaves: the nine-tap window sum at every entry. -/
def blockFn : S4x256x256.Idx → EReal := fun y => convWin x0 x1 x2 x3 (y 0).val (y 1).val (y 2).val

/-- One store, at output channel tt of the block and rows o1 … o1 + 127 (o1 = 0 or 128), of the window's rows
    R0 = 2·tt + o1 / 128, R0 + 1, R0 + 2 against the weight rows o1 … o1 + 127: its value at a local entry is the
    block function at the entry's place in the block. -/
theorem piece_gen (tt o1 R0 R1 R2 : Nat) (ho : o1 = 0 ∨ o1 = 128) (htt : tt < 4)
    (hR0 : R0 = 2 * tt + o1 / 128) (hR1 : R1 = R0 + 1) (hR2 : R2 = R0 + 2)
    (h0 : S128x10x256.Slices ![0, R0, 0] S128x1x256) (h1 : S128x10x256.Slices ![0, R1, 0] S128x1x256)
    (h2 : S128x10x256.Slices ![0, R2, 0] S128x1x256)
    (inbw : ∀ a, (![0, o1, 0] : Fin 3 → Nat) a + S9x128x256.size a ≤ S9x256x256.size a)
    (inbo : ∀ a, (![tt, o1, 0] : Fin 3 → Nat) a + S1x128x256.size a ≤ S4x256x256.size a)
    (x : S1x128x256.Idx) :
    rowOut (F := Ideal) R0 R1 R2 h0 h1 h2 (k0_pay2 (F := Ideal) x0 x1 x2) (k0_pay3 (F := Ideal) x0 x1 x2) (k0_pay4 (F := Ideal) x0 x1 x2)
        (View.ld x3 (Rect.unit (s := S9x256x256) ![0, o1, 0] S9x128x256.size inbw)) x
      = blockFn x0 x1 x2 x3 ((Rect.unit (s := S4x256x256) ![tt, o1, 0] S1x128x256.size inbo).emb x) := by
  obtain ⟨a, q, rfl⟩ : ∃ (a : Fin 128) (q : Fin 256), x = ix3 (0 : Fin 1) a q :=
    ⟨x 1, x 2, (eq_ix3 x).trans (by
      have h0 : (x 0).val < 1 := (x 0).isLt
      rw [show x 0 = (0 : Fin 1) from Fin.ext (by show (x 0).val = 0; omega)]
      rfl)⟩
  rw [rowOut_apply]
  have ha : a.val < 128 := a.isLt
  have hq : q.val < 256 := q.isLt
  show _ = convWin x0 x1 x2 x3 (tt + 1 * (0 : Fin 1).val) (o1 + 1 * a.val) (0 + 1 * q.val)
  unfold convWin
  refine Finset.sum_congr rfl fun k _ => ?_
  have hk : k.val < 9 := k.isLt
  subst hR1 hR2
  rw [shifted_rd x0 x1 x2 (k.val % 3) (q.val % 128) _ (2 * a.val + q.val / 128) (by omega) (by omega)
      (by rw [pick3_succ _ _ (by omega)]; omega) (by omega),
    pick3_succ _ _ (by omega)]
  have e1 : R0 + k.val / 3 = 2 * (tt + 1 * (0 : Fin 1).val) + (o1 + 1 * a.val) / 128 + k.val / 3 := by
    show R0 + k.val / 3 = 2 * (tt + 1 * 0) + (o1 + 1 * a.val) / 128 + k.val / 3
    rcases ho with rfl | rfl <;> omega
  have e2 : 2 * a.val + q.val / 128 + k.val % 3 = 2 * ((o1 + 1 * a.val) % 128) + (0 + 1 * q.val) / 128 + k.val % 3 := by
    rcases ho with rfl | rfl <;> omega
  have e3 : q.val % 128 = (0 + 1 * q.val) % 128 := by omega
  rw [← e1, ← e2, ← e3]
  refine congrArg (_ * ·) ?_
  rw [dif_pos (show o1 + 1 * a.val < 256 ∧ 0 + 1 * q.val < 256 by rcases ho with rfl | rfl <;> omega)]
  show x3 _ = x3 _
  refine congrArg x3 (funext fun d => Fin.ext ?_)
  match d with
  | ⟨0, _⟩ => show 0 + 1 * k.val = k.val; omega
  | ⟨1, _⟩ => show o1 + 1 * a.val = o1 + 1 * a.val; rfl
  | ⟨2, _⟩ => show 0 + 1 * q.val = 0 + 1 * q.val; rfl

/-- The store at block rows 0…127 of output channel 0 of the block. -/
theorem piece0 (x : S1x128x256.Idx) :
    (k0_pay6 (F := Ideal) (k0_pay5 (F := Ideal) x0 x1 x2) (View.ld x3 r0_2)) x = blockFn x0 x1 x2 x3 (r0_3.emb x) :=
  (congrFun (store0_eq (F := Ideal) x0 x1 x2 (View.ld x3 r0_2)) x).trans
    (piece_gen x0 x1 x2 x3 0 0 0 1 2 (by decide) (by decide) rfl rfl rfl slices_S128x10x256_o0_0_0_S128x1x256 slices_S128x10x256_o0_1_0_S128x1x256 slices_S128x10x256_o0_2_0_S128x1x256 inb_S9x256x256_S9x128x256_0_0_0 inb_S4x256x256_S1x128x256_0_0_0 x)

/-- The store at block rows 128…255 of output channel 0 of the block. -/
theorem piece1 (x : S1x128x256.Idx) :
    (k0_pay7 (F := Ideal) (k0_pay2 (F := Ideal) x0 x1 x2) (k0_pay3 (F := Ideal) x0 x1 x2) (k0_pay4 (F := Ideal) x0 x1 x2) (View.ld x3 r0_4)) x = blockFn x0 x1 x2 x3 (r0_5.emb x) :=
  (congrFun (store1_eq (F := Ideal) x0 x1 x2 (View.ld x3 r0_4)) x).trans
    (piece_gen x0 x1 x2 x3 0 128 1 2 3 (by decide) (by decide) rfl rfl rfl slices_S128x10x256_o0_1_0_S128x1x256 slices_S128x10x256_o0_2_0_S128x1x256 slices_S128x10x256_o0_3_0_S128x1x256 inb_S9x256x256_S9x128x256_0_128_0 inb_S4x256x256_S1x128x256_0_128_0 x)

/-- The store at block rows 0…127 of output channel 1 of the block. -/
theorem piece2 (x : S1x128x256.Idx) :
    (k0_pay9 (F := Ideal) (k0_pay2 (F := Ideal) x0 x1 x2) (k0_pay3 (F := Ideal) x0 x1 x2) (k0_pay4 (F := Ideal) x0 x1 x2) (k0_pay8 (k0_pay3 (F := Ideal) x0 x1 x2)) (View.ld x3 r0_2)) x = blockFn x0 x1 x2 x3 (r0_6.emb x) :=
  (congrFun (store2_eq (F := Ideal) x0 x1 x2 (View.ld x3 r0_2)) x).trans
    (piece_gen x0 x1 x2 x3 1 0 2 3 4 (by decide) (by decide) rfl rfl rfl slices_S128x10x256_o0_2_0_S128x1x256 slices_S128x10x256_o0_3_0_S128x1x256 slices_S128x10x256_o0_4_0_S128x1x256 inb_S9x256x256_S9x128x256_0_0_0 inb_S4x256x256_S1x128x256_1_0_0 x)

/-- The store at block rows 128…255 of output channel 1 of the block. -/
theorem piece3 (x : S1x128x256.Idx) :
    (k0_pay18 (F := Ideal) (k0_pay4 (F := Ideal) x0 x1 x2) (k0_pay10 (k0_pay3 (F := Ideal) x0 x1 x2)) (k0_pay11 (k0_pay2 (F := Ideal) x0 x1 x2)) (k0_pay12 (k0_pay4 (F := Ideal) x0 x1 x2)) (k0_pay13 (k0_pay3 (F := Ideal) x0 x1 x2)) (k0_pay14 (k0_pay2 (F := Ideal) x0 x1 x2)) (k0_pay15 (k0_pay4 (F := Ideal) x0 x1 x2)) (k0_pay16 (k0_pay3 (F := Ideal) x0 x1 x2)) (k0_pay17 (k0_pay2 (F := Ideal) x0 x1 x2)) (View.ld x3 r0_4)) x = blockFn x0 x1 x2 x3 (r0_7.emb x) :=
  (congrFun (store3_eq (F := Ideal) x0 x1 x2 (View.ld x3 r0_4)) x).trans
    (piece_gen x0 x1 x2 x3 1 128 3 4 5 (by decide) (by decide) rfl rfl rfl slices_S128x10x256_o0_3_0_S128x1x256 slices_S128x10x256_o0_4_0_S128x1x256 slices_S128x10x256_o0_5_0_S128x1x256 inb_S9x256x256_S9x128x256_0_128_0 inb_S4x256x256_S1x128x256_1_128_0 x)

/-- The store at block rows 0…127 of output channel 2 of the block. -/
theorem piece4 (x : S1x128x256.Idx) :
    (k0_pay20 (F := Ideal) (k0_pay19 (k0_pay2 (F := Ideal) x0 x1 x2) (k0_pay3 (F := Ideal) x0 x1 x2) (k0_pay4 (F := Ideal) x0 x1 x2)) (View.ld x3 r0_2)) x = blockFn x0 x1 x2 x3 (r0_8.emb x) :=
  (congrFun (store4_eq (F := Ideal) x0 x1 x2 (View.ld x3 r0_2)) x).trans
    (piece_gen x0 x1 x2 x3 2 0 4 5 6 (by decide) (by decide) rfl rfl rfl slices_S128x10x256_o0_4_0_S128x1x256 slices_S128x10x256_o0_5_0_S128x1x256 slices_S128x10x256_o0_6_0_S128x1x256 inb_S9x256x256_S9x128x256_0_0_0 inb_S4x256x256_S1x128x256_2_0_0 x)

/-- The store at block rows 128…255 of output channel 2 of the block. -/
theorem piece5 (x : S1x128x256.Idx) :
    (k0_pay22 (F := Ideal) (k0_pay21 (k0_pay2 (F := Ideal) x0 x1 x2) (k0_pay3 (F := Ideal) x0 x1 x2) (k0_pay4 (F := Ideal) x0 x1 x2) (View.ld x3 r0_4))) x = blockFn x0 x1 x2 x3 (r0_9.emb x) :=
  (congrFun (store5_eq (F := Ideal) x0 x1 x2 (View.ld x3 r0_4)) x).trans
    (piece_gen x0 x1 x2 x3 2 128 5 6 7 (by decide) (by decide) rfl rfl rfl slices_S128x10x256_o0_5_0_S128x1x256 slices_S128x10x256_o0_6_0_S128x1x256 slices_S128x10x256_o0_7_0_S128x1x256 inb_S9x256x256_S9x128x256_0_128_0 inb_S4x256x256_S1x128x256_2_128_0 x)

/-- The store at block rows 0…127 of output channel 3 of the block. -/
theorem piece6 (x : S1x128x256.Idx) :
    (k0_pay23 (F := Ideal) (k0_pay2 (F := Ideal) x0 x1 x2) (k0_pay3 (F := Ideal) x0 x1 x2) (k0_pay4 (F := Ideal) x0 x1 x2) (View.ld x3 r0_2)) x = blockFn x0 x1 x2 x3 (r0_10.emb x) :=
  (congrFun (store6_eq (F := Ideal) x0 x1 x2 (View.ld x3 r0_2)) x).trans
    (piece_gen x0 x1 x2 x3 3 0 6 7 8 (by decide) (by decide) rfl rfl rfl slices_S128x10x256_o0_6_0_S128x1x256 slices_S128x10x256_o0_7_0_S128x1x256 slices_S128x10x256_o0_8_0_S128x1x256 inb_S9x256x256_S9x128x256_0_0_0 inb_S4x256x256_S1x128x256_3_0_0 x)

/-- The store at block rows 128…255 of output channel 3 of the block. -/
theorem piece7 (x : S1x128x256.Idx) :
    (k0_pay1 (F := Ideal) (k0_pay2 (F := Ideal) x0 x1 x2) (k0_pay3 (F := Ideal) x0 x1 x2) (k0_pay4 (F := Ideal) x0 x1 x2) (k0_pay24 (k0_pay3 (F := Ideal) x0 x1 x2)) (k0_pay25 (k0_pay2 (F := Ideal) x0 x1 x2)) (k0_pay26 (k0_pay4 (F := Ideal) x0 x1 x2)) (k0_pay27 (k0_pay3 (F := Ideal) x0 x1 x2)) (k0_pay28 (k0_pay2 (F := Ideal) x0 x1 x2)) (k0_pay29 (k0_pay4 (F := Ideal) x0 x1 x2)) (View.ld x3 r0_4)) x = blockFn x0 x1 x2 x3 (r0_11.emb x) :=
  (congrFun (store7_eq (F := Ideal) x0 x1 x2 (View.ld x3 r0_4)) x).trans
    (piece_gen x0 x1 x2 x3 3 128 7 8 9 (by decide) (by decide) rfl rfl rfl slices_S128x10x256_o0_7_0_S128x1x256 slices_S128x10x256_o0_8_0_S128x1x256 slices_S128x10x256_o0_9_0_S128x1x256 inb_S9x256x256_S9x128x256_0_128_0 inb_S4x256x256_S1x128x256_3_128_0 x)

theorem hz3 : (![0, 0, 0] : Fin 3 → Nat) = fun _ => 0 := funext fun a => by fin_cases a <;> rfl

/-- The eight stores tile the block, each with the block function's values: the block is the block function. -/
theorem out0_4_eq : out0_4 (F := Ideal) x0 x1 x2 x3 = blockFn x0 x1 x2 x3 := by
  funext y
  unfold out0_4
  simp only [View.ld_unit_zero (S := S128x8x256) hz3, View.ld_unit_zero (S := S1x128x256) hz3]
  refine View.canon_apply_of_pieces (Val := Elt Ideal) (blockFn x0 x1 x2 x3) _ ?_ y (cover0_4 _ _ _ _ _ _ _ _ y)
  intro p hp x
  simp only [List.mem_cons, List.mem_nil_iff, or_false] at hp
  rcases hp with rfl | rfl | rfl | rfl | rfl | rfl | rfl | rfl
  · exact piece7 x0 x1 x2 x3 x
  · exact piece6 x0 x1 x2 x3 x
  · exact piece5 x0 x1 x2 x3 x
  · exact piece4 x0 x1 x2 x3 x
  · exact piece3 x0 x1 x2 x3 x
  · exact piece2 x0 x1 x2 x3 x
  · exact piece1 x0 x1 x2 x3 x
  · exact piece0 x0 x1 x2 x3 x

end Cert.KernelIdeal.Body

end
-- ==== Proof.HostPrefix.lean ====
/-
  What the kernel region finds in its four input arrays, entry by entry, in terms of the program's two arguments:
  the activation without its unit axis; the row above each window and the row below it, gathered out of the
  activation padded by one zero row at each end (so the first window's upper row and the last window's lower row are
  zero); and the weights laid out tap-major.
-/
import proofs.«158289_j47132971106931_1_alg».proof.Proof.Spec
import proofs.«158289_j47132971106931_1_alg».proof.Proof.Gen.KernelIdeal.Frame
import Idealize.ShloMosaic.Lib.KernelVsHost
import Idealize.ShloMosaic.Lib.StableHlo.Run

noncomputable section

open scoped BigOperators

namespace Cert.KernelIdeal.Pre

open Cert.KernelIdeal Cert.KernelIdeal.Gen Cert.Conv Idealize.ShloMosaic Idealize.ShloMosaic.TcCoe Idealize.ShloMosaic.ValueIdx Idealize.SL.Sem

variable (m : (ℓ : Loc nD τ sig) → Buf (Elt Ideal) ℓ)

/-- The activation, as launched. -/
abbrev X (c : Dev nD) : SX.Idx → EReal := m ((c : Thread nD τ).loc main_arg0)
/-- The weights, as launched. -/
abbrev Wt (c : Dev nD) : SW.Idx → EReal := m ((c : Thread nD τ).loc main_arg1)

/-- The host's reshape of the activation: the unit axis dropped. -/
private theorem e0 (c : Dev nD) : (V m c main_v0 : S128x256x256.Idx → EReal)
    = shapeCast S128x256x256 (X m c) shapeCasts_S1x128x256x256_S128x256x256 := by
  dsimp only [Gen.V, Gen.V0]
  simp only [Gen.hostOps0, Gen.hostOps0_1, Gen.hostOps0_2, List.flatten_cons, List.flatten_nil, List.append_nil,
    List.cons_append, List.nil_append]
  after_results
  rfl

/-- The reshape read at (a, h, q) is the activation at (0, a, h, q): the two row-major positions agree. -/
private theorem reshapeX_apply (x : S1x128x256x256.Idx → EReal) (a : Fin 128) (h q : Fin 256) :
    shapeCast S128x256x256 x shapeCasts_S1x128x256x256_S128x256x256 (ix3 a h q) = x (ix4 (0 : Fin 1) a h q) :=
  shapeCast_apply _ _ _ _ (by
    rw [Shape.rowMajor_val_four, Shape.rowMajor_val_three]
    show ((0 * 128 + a.val) * 256 + h.val) * 256 + q.val = (a.val * 256 + h.val) * 256 + q.val
    omega)

/-- The index column of a gather: the literal table itself, the select's condition being the constant false. -/
private theorem col_apply (lit : Fin 32 → BitVec 32) (g : Fin 32) :
    broadcastInDim S32x1 ![0] bcast_S32_S32x1_0
      (select (constantI S32 1 0#1)
        (addi (fun i => lit (S32.rowMajor i)) (broadcastInDim S32 ![] bcast_S_S32 (constantI S_ 32 258#32)))
        (fun i => lit (S32.rowMajor i))) (ix2 g (0 : Fin 1)) = lit g := by
  refine (broadcastInDim_apply _ _ _ _ (ix1 g) (fun a => ?_)).trans ?_
  · match a with
    | ⟨0, _⟩ => rfl
  · rw [select_apply]
    show Scalar.select 0#1 _ _ = _
    rw [select_zero]
    show lit (S32.rowMajor (ix1 g)) = lit g
    congr 1
    exact Fin.ext (Shape.rowMajor_val_one _)

/-- The padded activation read at row r: the activation's row r - 1 inside, zero on the two added rows. -/
private theorem pad_row (x : S128x256x256.Idx → EReal) (a : Fin 128) (r : Fin 258) (q : Fin 256) :
    pad S128x258x256 ![0, 1, 0] ![0, 1, 0] ![0, 0, 0] x (sitofp (F := Ideal) .f32 (constantI S_ 32 0#32))
        pads_S128x256x256_S128x258x256_000_110_000 h_S_ (ix3 a r q)
      = if h : 1 ≤ r.val ∧ r.val ≤ 256 then x (ix3 a (⟨r.val - 1, by omega⟩ : Fin 256) q) else 0 := by
  by_cases h : 1 ≤ r.val ∧ r.val ≤ 256
  · rw [dif_pos h]
    refine pad_apply_of_inside _ _ _ x _ _ _ _ _ (fun b => ?_)
    match b with
    | ⟨0, _⟩ => show a.val = 0 + a.val * (0 + 1); omega
    | ⟨1, _⟩ => show r.val = 1 + (r.val - 1) * (0 + 1); omega
    | ⟨2, _⟩ => show q.val = 0 + q.val * (0 + 1); omega
  · rw [dif_neg h]
    refine (pad_apply_of_not_inside _ _ _ x _ _ _ _ (1 : Fin 3) (fun hin => ?_)).trans ?_
    · have h1 : 1 ≤ r.val := hin.1
      have h2 : (r.val - 1) / (0 + 1) < 256 := hin.2.2
      have := r.isLt
      exact h ⟨h1, by omega⟩
    · rw [sitofp_apply]
      show ((((0#32 : BitVec 32).toInt : ℝ)) : EReal) = 0
      simp

local notation "GD" => gather_S128x258x256_S32x1_S128x32x256_02_1_n_n_1_1_1281256

/-- The gathered rows, windows first: entry (g, a, q) is the operand's row at the g-th start index, read signed and
    clamped into the operand's 258 rows (the row is named r by the caller), of channel a at column q. -/
private theorem gather_row (x : S128x258x256.Idx → EReal) (idx : IVec S32x1 32) (g : Fin 32) (a : Fin 128) (q : Fin 256)
    (r : Nat) (hr : min (idx (ix2 g (0 : Fin 1))).toInt.toNat 257 = r) (hlt : r < 258) :
    transpose S32x128x256 [1, 0, 2] (Host.gather GD x idx) transposes_S128x32x256_S32x128x256_1_0_2 (ix3 g a q)
      = x (ix3 a (⟨r, hlt⟩ : Fin 258) q) := by
  refine (transpose_apply _ _ _ _ (ix3 a g q) (fun b => ?_)).trans ?_
  · match b with
    | ⟨0, _⟩ => rfl
    | ⟨1, _⟩ => rfl
    | ⟨2, _⟩ => rfl
  · unfold Host.gather
    refine congrArg x (funext fun d => Fin.ext ?_)
    show GatherDims.start GD (ix3 a g q) idx d + GatherDims.batchCoord GD (ix3 a g q) d
      + GatherDims.offCoord GD (ix3 a g q) d = _
    rw [GatherDims.batchCoord_eq_zero _ _ _ List.not_mem_nil]
    match d with
    | ⟨0, h0⟩ =>
      have hs : GatherDims.start GD (ix3 a g q) idx (0 : Fin 3) = 0 := by
        unfold GatherDims.start; exact dif_neg (by decide)
      have ho : GatherDims.offCoord GD (ix3 a g q) (0 : Fin 3) = a.val := by
        unfold GatherDims.offCoord; rw [dif_pos (by decide)]; rfl
      show GatherDims.start GD (ix3 a g q) idx (0 : Fin 3) + 0 + GatherDims.offCoord GD (ix3 a g q) (0 : Fin 3) = a.val
      rw [hs, ho]
      omega
    | ⟨1, h1⟩ =>
      have ho : GatherDims.offCoord GD (ix3 a g q) (1 : Fin 3) = 0 :=
        GatherDims.offCoord_eq_zero _ _ _ (fun h => ((GatherDims.mem_sKept _ _).mp h).1 (List.mem_singleton.mpr rfl))
      have hs : GatherDims.start GD (ix3 a g q) idx (1 : Fin 3) = min (idx (ix2 g (0 : Fin 1))).toInt.toNat 257 := by
        unfold GatherDims.start
        rw [dif_pos (show (1 : Fin 3) ∈ GatherDims.startIndexMap GD from List.mem_singleton.mpr rfl)]
        have hsi : GatherDims.siIdx GD (ix3 a g q) ⟨List.idxOf (1 : Fin 3) (GatherDims.startIndexMap GD),
            List.idxOf_lt_length_iff.2 (List.mem_singleton.mpr rfl)⟩ = ix2 g (0 : Fin 1) := by
          funext b; refine Fin.ext ?_
          match b with
          | ⟨0, _⟩ => rfl
          | ⟨1, _⟩ => rfl
        rw [hsi]
        rfl
      show GatherDims.start GD (ix3 a g q) idx (1 : Fin 3) + 0 + GatherDims.offCoord GD (ix3 a g q) (1 : Fin 3) = r
      rw [hs, ho, hr]
      omega
    | ⟨2, h2⟩ =>
      have hs : GatherDims.start GD (ix3 a g q) idx (2 : Fin 3) = 0 := by
        unfold GatherDims.start; exact dif_neg (by decide)
      have ho : GatherDims.offCoord GD (ix3 a g q) (2 : Fin 3) = q.val := by
        unfold GatherDims.offCoord; rw [dif_pos (by decide)]; rfl
      show GatherDims.start GD (ix3 a g q) idx (2 : Fin 3) + 0 + GatherDims.offCoord GD (ix3 a g q) (2 : Fin 3) = q.val
      rw [hs, ho]
      omega

/-- A gather of the padded activation at the rows a literal table names, windows first: entry (g, a, q) is the bordered
    image's row r = table g (at most 257) of channel a at bordered column q + 1. -/
private theorem rows_apply (x : S1x128x256x256.Idx → EReal) (lit : Fin 32 → BitVec 32) (r : Nat) (g : Fin 32) (a : Fin 128)
    (q : Fin 256) (hr : (lit g).toInt.toNat = r) (hr' : r ≤ 257) :
    transpose S32x128x256 [1, 0, 2]
        (Host.gather GD
          (pad S128x258x256 ![0, 1, 0] ![0, 1, 0] ![0, 0, 0]
            (shapeCast S128x256x256 x shapeCasts_S1x128x256x256_S128x256x256)
            (sitofp (F := Ideal) .f32 (constantI S_ 32 0#32)) pads_S128x256x256_S128x258x256_000_110_000 h_S_)
          (broadcastInDim S32x1 ![0] bcast_S32_S32x1_0
            (select (constantI S32 1 0#1)
              (addi (fun i => lit (S32.rowMajor i)) (broadcastInDim S32 ![] bcast_S_S32 (constantI S_ 32 258#32)))
              (fun i => lit (S32.rowMajor i)))))
        transposes_S128x32x256_S32x128x256_1_0_2 (ix3 g a q)
      = border x a.val r (q.val + 1) := by
  refine (gather_row _ _ g a q r (by rw [col_apply, hr]; omega) (by omega)).trans ?_
  refine (pad_row _ a ⟨r, by omega⟩ q).trans ?_
  unfold border
  have := a.isLt
  have := q.isLt
  by_cases h : 1 ≤ r ∧ r ≤ 256
  · rw [dif_pos h, dif_pos ⟨a.isLt, h.1, h.2, by omega, by omega⟩]
    refine (reshapeX_apply x a _ q).trans ?_
    refine congrArg x (funext fun d => Fin.ext ?_)
    match d with
    | ⟨0, _⟩ => rfl
    | ⟨1, _⟩ => rfl
    | ⟨2, _⟩ => rfl
    | ⟨3, _⟩ => show q.val = q.val + 1 - 1; omega
  · rw [dif_neg h, dif_neg (fun h' => h ⟨h'.2.1, h'.2.2.1⟩)]

/-- The row table 0, 8, …, 248. -/
private theorem lit0_val : ∀ g : Fin 32, (lit0 g).toInt.toNat = 8 * g.val := by decide
/-- The row table 9, 17, …, 257. -/
private theorem lit1_val : ∀ g : Fin 32, (lit1 g).toInt.toNat = 8 * g.val + 9 := by decide

/-- Window 1's array as the host composes it. -/
private theorem e7 (c : Dev nD) : (V m c main_v7 : S32x128x256.Idx → EReal)
    = transpose S32x128x256 [1, 0, 2]
        (Host.gather GD
          (pad S128x258x256 ![0, 1, 0] ![0, 1, 0] ![0, 0, 0]
            (shapeCast S128x256x256 (X m c) shapeCasts_S1x128x256x256_S128x256x256)
            (sitofp (F := Ideal) .f32 (constantI S_ 32 0#32)) pads_S128x256x256_S128x258x256_000_110_000 h_S_)
          (broadcastInDim S32x1 ![0] bcast_S32_S32x1_0
            (select (constantI S32 1 0#1)
              (addi (fun i => lit0 (S32.rowMajor i)) (broadcastInDim S32 ![] bcast_S_S32 (constantI S_ 32 258#32)))
              (fun i => lit0 (S32.rowMajor i)))))
        transposes_S128x32x256_S32x128x256_1_0_2 := by
  dsimp only [Gen.V, Gen.V0]
  simp only [Gen.hostOps0, Gen.hostOps0_1, Gen.hostOps0_2, List.flatten_cons, List.flatten_nil, List.append_nil,
    List.cons_append, List.nil_append]
  after_results
  rfl

/-- Window 2's array as the host composes it. -/
private theorem e13 (c : Dev nD) : (V m c main_v13 : S32x128x256.Idx → EReal)
    = transpose S32x128x256 [1, 0, 2]
        (Host.gather GD
          (pad S128x258x256 ![0, 1, 0] ![0, 1, 0] ![0, 0, 0]
            (shapeCast S128x256x256 (X m c) shapeCasts_S1x128x256x256_S128x256x256)
            (sitofp (F := Ideal) .f32 (constantI S_ 32 0#32)) pads_S128x256x256_S128x258x256_000_110_000 h_S_)
          (broadcastInDim S32x1 ![0] bcast_S32_S32x1_0
            (select (constantI S32 1 0#1)
              (addi (fun i => lit1 (S32.rowMajor i)) (broadcastInDim S32 ![] bcast_S_S32 (constantI S_ 32 258#32)))
              (fun i => lit1 (S32.rowMajor i)))))
        transposes_S128x32x256_S32x128x256_1_0_2 := by
  dsimp only [Gen.V, Gen.V0]
  simp only [Gen.hostOps0, Gen.hostOps0_1, Gen.hostOps0_2, List.flatten_cons, List.flatten_nil, List.append_nil,
    List.cons_append, List.nil_append]
  after_results
  rfl

/-- Window 3's array as the host composes it. -/
private theorem e15 (c : Dev nD) : (V m c main_v15 : S9x256x256.Idx → EReal)
    = transpose S9x256x256 [2, 0, 1] (shapeCast S256x256x9 (Wt m c) shapeCasts_S65536x9_S256x256x9)
        transposes_S256x256x9_S9x256x256_2_0_1 := by
  dsimp only [Gen.V, Gen.V0]
  simp only [Gen.hostOps0, Gen.hostOps0_1, Gen.hostOps0_2, List.flatten_cons, List.flatten_nil, List.append_nil,
    List.cons_append, List.nil_append]
  after_results
  rfl

/-- Window 0's array is the activation without its unit axis. -/
theorem V_v0_apply (c : Dev nD) (a : Fin 128) (h q : Fin 256) :
    (V m c main_v0 : S128x256x256.Idx → EReal) (ix3 a h q) = X m c (ix4 (0 : Fin 1) a h q) :=
  (congrFun (e0 m c) _).trans (reshapeX_apply _ a h q)

/-- Window 1's array holds, for window g, the bordered image's row 8g (the row above the window; zero for g = 0). -/
theorem V_v7_apply (c : Dev nD) (g : Fin 32) (a : Fin 128) (q : Fin 256) :
    (V m c main_v7 : S32x128x256.Idx → EReal) (ix3 g a q) = border (X m c) a.val (8 * g.val) (q.val + 1) :=
  (congrFun (e7 m c) _).trans (rows_apply _ lit0 _ g a q (lit0_val g) (by have := g.isLt; omega))

/-- Window 2's array holds, for window g, the bordered image's row 8g + 9 (the row below the window; zero for g = 31). -/
theorem V_v13_apply (c : Dev nD) (g : Fin 32) (a : Fin 128) (q : Fin 256) :
    (V m c main_v13 : S32x128x256.Idx → EReal) (ix3 g a q) = border (X m c) a.val (8 * g.val + 9) (q.val + 1) :=
  (congrFun (e13 m c) _).trans (rows_apply _ lit1 _ g a q (lit1_val g) (by have := g.isLt; omega))

/-- Window 3's array is the weights tap-major: entry (k, h, q) is the weight of tap k at location h·256 + q. -/
theorem V_v15_apply (c : Dev nD) (k : Fin 9) (h q : Fin 256) :
    (V m c main_v15 : S9x256x256.Idx → EReal) (ix3 k h q) = wt (Wt m c) (h.val * 256 + q.val) k := by
  have hl : h.val * 256 + q.val < 65536 := by have := h.isLt; have := q.isLt; omega
  refine (congrFun (e15 m c) _).trans ?_
  refine (transpose_apply _ _ _ _ (ix3 h q k) (fun b => ?_)).trans ?_
  · match b with
    | ⟨0, _⟩ => rfl
    | ⟨1, _⟩ => rfl
    | ⟨2, _⟩ => rfl
  · unfold wt
    rw [dif_pos hl]
    exact shapeCast_apply _ _ _ (ix2 (⟨h.val * 256 + q.val, hl⟩ : Fin 65536) k) (by
      rw [Shape.rowMajor_val_two, Shape.rowMajor_val_three]
      show (h.val * 256 + q.val) * 9 + k.val = (h.val * 256 + q.val) * 9 + k.val
      rfl)

end Cert.KernelIdeal.Pre

end
-- ==== Proof.KernelValue.lean ====
/-
  The kernel program's result at the ideal values is the interleaved stencil `Cert.Conv.G` of its two arguments.
  Grid step t works on output channels 4t … 4t + 3. Its window of the image is rows 8t … 8t + 7 of every channel with
  the bordered image's rows 8t and 8t + 9 as the borrowed rows, so the ten-row window read through its zero columns is
  the bordered image at row 8t + r; output channel 4t + tt then reads rows 2(4t + tt) + oh / 128 + (0, 1, 2), which are
  rows 2·tt + oh / 128 + (0, 1, 2) of the window. The 32 blocks tile the [128, 256, 256] array, and the program's last
  operation only puts the unit axis in front.
-/
import proofs.«158289_j47132971106931_1_alg».proof.Proof.Spec
import proofs.«158289_j47132971106931_1_alg».proof.Proof.Stores
import proofs.«158289_j47132971106931_1_alg».proof.Proof.HostPrefix
import proofs.«158289_j47132971106931_1_alg».proof.Proof.Gen.KernelIdeal.Frame
import Idealize.ShloMosaic.Lib.Pipeline.Value
import Idealize.ShloMosaic.Lib.StableHlo.Run

noncomputable section

open scoped BigOperators

namespace Cert.KernelIdeal.KValue

open Cert.KernelIdeal Cert.KernelIdeal.Gen Cert.KernelIdeal.Body Cert.KernelIdeal.Pre Cert.Conv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The windows' block indices at grid step t: the activation moves along its row axis, the two borrowed rows and
    the output along their leading axis, the weights stay. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ t.val < 32 :=
  (by decide +kernel : ∀ t : Fin grid0.N, _)

/-- The four input blocks of grid step t, at their literal types. -/
abbrev b0 (c : Dev nD) (t : Fin cfg0.N) : Vec Ideal S128x8x256 .f32 := iblk m c 0 t
abbrev b1 (c : Dev nD) (t : Fin cfg0.N) : Vec Ideal S1x128x256 .f32 := iblk m c 1 t
abbrev b2 (c : Dev nD) (t : Fin cfg0.N) : Vec Ideal S1x128x256 .f32 := iblk m c 2 t
abbrev b3 (c : Dev nD) (t : Fin cfg0.N) : Vec Ideal S9x256x256 .f32 := iblk m c 3 t

/-- The activation block of step t holds rows 8t … 8t + 7. -/
theorem b0_apply (c : Dev nD) (t : Fin cfg0.N) (a : Fin 128) (r : Fin 8) (q : Fin 256) (h : 8 * t.val + r.val < 256) :
    b0 m c t (ix3 a r q) = X m c (ix4 (0 : Fin 1) a (⟨8 * t.val + r.val, h⟩ : Fin 256) q) := by
  obtain ⟨e0, e1, e2, -⟩ := idx_facts t
  refine Eq.trans ?_ (V_v0_apply m c a (⟨8 * t.val + r.val, h⟩ : Fin 256) q)
  show V m c main_v0 (((cfg0.win 0).blk t).view.emb (ix3 a r q)) = V m c main_v0 (ix3 a (⟨8 * t.val + r.val, h⟩ : Fin 256) q)
  refine congrArg (V m c main_v0) (funext fun d => Fin.ext ?_)
  match d with
  | ⟨0, _⟩ => show win0_0.index t (0 : Fin 3) * 128 + 1 * a.val = a.val; omega
  | ⟨1, _⟩ => show win0_0.index t (1 : Fin 3) * 8 + 1 * r.val = 8 * t.val + r.val; omega
  | ⟨2, _⟩ => show win0_0.index t (2 : Fin 3) * 256 + 1 * q.val = q.val; omega

/-- The upper borrowed row of step t is the bordered image's row 8t. -/
theorem b1_apply (c : Dev nD) (t : Fin cfg0.N) (a : Fin 128) (q : Fin 256) :
    b1 m c t (ix3 (0 : Fin 1) a q) = border (X m c) a.val (8 * t.val) (q.val + 1) := by
  obtain ⟨-, -, -, e0, e1, e2, -, -, -, -, -, -, -, -, -, ht⟩ := idx_facts t
  refine Eq.trans ?_ (V_v7_apply m c (⟨t.val, ht⟩ : Fin 32) a q)
  show V m c main_v7 (((cfg0.win 1).blk t).view.emb (ix3 (0 : Fin 1) a q)) = V m c main_v7 (ix3 (⟨t.val, ht⟩ : Fin 32) a q)
  refine congrArg (V m c main_v7) (funext fun d => Fin.ext ?_)
  match d with
  | ⟨0, _⟩ => show win0_1.index t (0 : Fin 3) * 1 + 1 * (0 : Fin 1).val = t.val; show win0_1.index t (0 : Fin 3) * 1 + 1 * 0 = t.val; omega
  | ⟨1, _⟩ => show win0_1.index t (1 : Fin 3) * 128 + 1 * a.val = a.val; omega
  | ⟨2, _⟩ => show win0_1.index t (2 : Fin 3) * 256 + 1 * q.val = q.val; omega

/-- The lower borrowed row of step t is the bordered image's row 8t + 9. -/
theorem b2_apply (c : Dev nD) (t : Fin cfg0.N) (a : Fin 128) (q : Fin 256) :
    b2 m c t (ix3 (0 : Fin 1) a q) = border (X m c) a.val (8 * t.val + 9) (q.val + 1) := by
  obtain ⟨-, -, -, -, -, -, e0, e1, e2, -, -, -, -, -, -, ht⟩ := idx_facts t
  refine Eq.trans ?_ (V_v13_apply m c (⟨t.val, ht⟩ : Fin 32) a q)
  show V m c main_v13 (((cfg0.win 2).blk t).view.emb (ix3 (0 : Fin 1) a q)) = V m c main_v13 (ix3 (⟨t.val, ht⟩ : Fin 32) a q)
  refine congrArg (V m c main_v13) (funext fun d => Fin.ext ?_)
  match d with
  | ⟨0, _⟩ => show win0_2.index t (0 : Fin 3) * 1 + 1 * 0 = t.val; omega
  | ⟨1, _⟩ => show win0_2.index t (1 : Fin 3) * 128 + 1 * a.val = a.val; omega
  | ⟨2, _⟩ => show win0_2.index t (2 : Fin 3) * 256 + 1 * q.val = q.val; omega

/-- The weight block is the whole tap-major weight array at every step. -/
theorem b3_apply (c : Dev nD) (t : Fin cfg0.N) (k : Fin 9) (h q : Fin 256) :
    b3 m c t (ix3 k h q) = wt (Wt m c) (h.val * 256 + q.val) k := by
  obtain ⟨-, -, -, -, -, -, -, -, -, e0, e1, e2, -⟩ := idx_facts t
  refine Eq.trans ?_ (V_v15_apply m c k h q)
  show V m c main_v15 (((cfg0.win 3).blk t).view.emb (ix3 k h q)) = V m c main_v15 (ix3 k h q)
  refine congrArg (V m c main_v15) (funext fun d => Fin.ext ?_)
  match d with
  | ⟨0, _⟩ => show win0_3.index t (0 : Fin 3) * 9 + 1 * k.val = k.val; omega
  | ⟨1, _⟩ => show win0_3.index t (1 : Fin 3) * 256 + 1 * h.val = h.val; omega
  | ⟨2, _⟩ => show win0_3.index t (2 : Fin 3) * 256 + 1 * q.val = q.val; omega

/-- The ten-row window of step t behind its zero columns is the bordered image at row 8t + r. -/
theorem halo_blocks (c : Dev nD) (t : Fin cfg0.N) (cc r j : Nat) (hr : r < 10) :
    halo (b0 m c t) (b1 m c t) (b2 m c t) cc r j = border (X m c) cc (8 * t.val + r) j := by
  have ht : t.val < 32 := (idx_facts t).2.2.2.2.2.2.2.2.2.2.2.2.2.2.2
  unfold halo
  by_cases h : cc < 128 ∧ 1 ≤ j ∧ j ≤ 256
  · obtain ⟨hc, hj1, hj2⟩ := h
    rw [dif_pos ⟨hc, hr, hj1, hj2⟩]
    by_cases h0 : r = 0
    · rw [dif_pos h0]; subst h0
      rw [b1_apply]
      show border (X m c) cc (8 * t.val) (j - 1 + 1) = border (X m c) cc (8 * t.val + 0) j
      rw [show j - 1 + 1 = j by omega, Nat.add_zero]
    · rw [dif_neg h0]
      by_cases h9 : r = 9
      · rw [dif_pos h9]; subst h9
        rw [b2_apply]
        show border (X m c) cc (8 * t.val + 9) (j - 1 + 1) = border (X m c) cc (8 * t.val + 9) j
        rw [show j - 1 + 1 = j by omega]
      · rw [dif_neg h9]
        rw [b0_apply m c t _ _ _ (by show 8 * t.val + (r - 1) < 256; omega)]
        unfold border
        rw [dif_pos (show cc < 128 ∧ 1 ≤ 8 * t.val + r ∧ 8 * t.val + r ≤ 256 ∧ 1 ≤ j ∧ j ≤ 256 by omega)]
        refine congrArg (X m c) (funext fun d => Fin.ext ?_)
        match d with
        | ⟨0, _⟩ => rfl
        | ⟨1, _⟩ => rfl
        | ⟨2, _⟩ => show 8 * t.val + (r - 1) = 8 * t.val + r - 1; omega
        | ⟨3, _⟩ => rfl
  · rw [dif_neg (fun hh => h ⟨hh.1, hh.2.2.1, hh.2.2.2⟩)]
    unfold border
    rw [dif_neg (fun hh => h ⟨hh.1, hh.2.2.2.1, hh.2.2.2.2⟩)]

/-- WHAT STEP t WRITES BACK is block t of the stencil's result. -/
theorem flushed_eq (c : Dev nD) (t : Fin cfg0.N) :
    (dats m 0 c).flushed 4 t = ((cfg0.win 4).blk t).view.read (Elt Ideal) (G3 (X m c) (Wt m c)) := by
  show (cfg0.win 4).cut (grid0.coords t) ((dats m 0 c).after 4 t) = _
  rw [after0_4]
  show (cfg0.win 4).cut (grid0.coords t) (out0_4 (b0 m c t) (b1 m c t) (b2 m c t) (b3 m c t)) = _
  rw [out0_4_eq (b0 m c t) (b1 m c t) (b2 m c t) (b3 m c t)]
  obtain ⟨-, -, -, -, -, -, -, -, -, -, -, -, e0, e1, e2, ht⟩ := idx_facts t
  funext y
  have h0 : (y 0).val < 4 := (y 0).isLt
  have h1 : (y 1).val < 256 := (y 1).isLt
  have h2 : (y 2).val < 256 := (y 2).isLt
  show convWin (b0 m c t) (b1 m c t) (b2 m c t) (b3 m c t) (y 0).val (y 1).val (y 2).val
    = conv (X m c) (Wt m c) (win0_4.index t (0 : Fin 3) * 4 + 1 * (y 0).val) (win0_4.index t (1 : Fin 3) * 256 + 1 * (y 1).val)
        (win0_4.index t (2 : Fin 3) * 256 + 1 * (y 2).val)
  rw [e0, e1, e2]
  unfold convWin conv
  refine Finset.sum_congr rfl fun k _ => ?_
  have hk : k.val < 9 := k.isLt
  rw [halo_blocks m c t _ _ _ (by omega), dif_pos ⟨h1, h2⟩, b3_apply]
  rw [show 8 * t.val + (2 * (y 0).val + (y 1).val / 128 + k.val / 3) = 2 * (t.val * 4 + 1 * (y 0).val) + (0 * 256 + 1 * (y 1).val) / 128 + k.val / 3 by omega,
    show (y 2).val % 128 = (0 * 256 + 1 * (y 2).val) % 128 by omega,
    show 2 * ((y 1).val % 128) + (y 2).val / 128 + k.val % 3 = 2 * ((0 * 256 + 1 * (y 1).val) % 128) + (0 * 256 + 1 * (y 2).val) / 128 + k.val % 3 by omega,
    show (y 1).val * 256 + (y 2).val = (0 * 256 + 1 * (y 1).val) * 256 + (0 * 256 + 1 * (y 2).val) by omega]

/-- An index of the result array is in step t's block iff each coordinate is in the block's range on its axis. -/
theorem mem_blk (t : Fin cfg0.N) (i : S128x256x256.Idx) :
    i ∈ ((cfg0.win 4).blk t).view.set ↔ ∀ a : Fin 3, win0_4.index t a * S4x256x256.size a ≤ (i a).val
      ∧ (i a).val < win0_4.index t a * S4x256x256.size a + S4x256x256.size a := by
  show i ∈ ((View.whole main_v16).slice (win0_4.rect t)).set ↔ _
  rw [View.set_slice_whole, Rect.mem_set_unit]
  exact Iff.rfl

/-- The 32 blocks tile the array: output channel i₀ is in block i₀ / 4. -/
theorem cover (i : S128x256x256.Idx) :
    ∃ t : Fin cfg0.N, (cfg0.win 4).flush t = true ∧ i ∈ ((cfg0.win 4).blk t).view.set := by
  have hi0 : (i 0).val < 128 := (i 0).isLt
  have hi1 : (i 1).val < 256 := (i 1).isLt
  have hi2 : (i 2).val < 256 := (i 2).isLt
  obtain ⟨t, hte⟩ : ∃ t : Fin cfg0.N, t.val = (i 0).val / 4 :=
    ⟨⟨(i 0).val / 4, by have := N_0; show (i 0).val / 4 < grid0.N; omega⟩, rfl⟩
  obtain ⟨-, -, -, -, -, -, -, -, -, -, -, -, e0, e1, e2, ht⟩ := idx_facts t
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- THE RESULT ARRAY of the region after the run: the stencil without its unit axis. -/
theorem final (c : Dev nD) : (dats m 0 c).arrAt 4 cfg0.N = G3 (X m c) (Wt m c) :=
  (dats m 0 c).arrAt_eq_of_cover 4 (G3 (X m c) (Wt m c)) (fun t _ => flushed_eq m c t) cover

/-- The program's result: the last operation reads the region's array behind a new leading unit axis. -/
theorem tail (c : Dev nD) :
    Pipeline.afterTail₀ cfgs (dats m) 0 (V0 m) [hostOps1] c main_v17 = G (X m c) (Wt m c) := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = G3 (X m c) (Wt m c) :=
    (Pipeline.withArrays_arr spec0 launch0.win.arr_inj c _ _ 4).trans (final m c)
  rw [e]
  funext i
  refine (broadcastInDim_apply _ bcast_S128x256x256_S1x128x256x256_1_2_3 _ i (ix3 (i 1) (i 2) (i 3)) (fun a => ?_)).trans rfl
  match a with
  | ⟨0, _⟩ => show (i 1).val = if (128 : Nat) = 1 then 0 else (i 1).val; rw [if_neg (by decide)]
  | ⟨1, _⟩ => show (i 2).val = if (256 : Nat) = 1 then 0 else (i 2).val; rw [if_neg (by decide)]
  | ⟨2, _⟩ => show (i 3).val = if (256 : Nat) = 1 then 0 else (i 3).val; rw [if_neg (by decide)]

/-- THE RUN, READ: every weakly fair execution ends with the result at the stencil of the arguments and the
    arguments unchanged. -/
theorem run : θ_run defs (onTc (τ := τ) (main (F := Ideal))) ⟨m, fun _ => 0, ρ⟩ fun r => ∀ c : Dev nD,
      r.2.mem ((c.tc : Thread nD τ).loc main_v17) = G (X m c) (Wt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v17 (Pipeline.mem_restRefs_of main_v17 (by decide) (by decide))).trans (tail m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefSide.lean ====
/-
  The reference at the ideal values is the interleaved 3×3 stencil `Cert.Conv.G`: its result at (0, co, oh, ow) is read
  back through the final reshape, the sum over the nine taps, the product with the broadcast weights, the raw
  re-reading [1, 65536, 1152] → [1, 128, 65536, 9] of the transposed patches, the stack of the nine shifted slices and
  the zero padding, and the flat positions are compared by arithmetic.
-/
import proofs.«158289_j47132971106931_1_alg».proof.Proof.Spec
import proofs.«158289_j47132971106931_1_alg».proof.Proof.Gen.ReferenceIdeal.Read
import Idealize.ShloMosaic.Lib.KernelVsHost

noncomputable section

open scoped BigOperators

namespace Cert.RefSide

open Cert.ReferenceIdeal Cert.ReferenceIdeal.Read Cert.Conv Idealize.ShloMosaic Idealize.ShloMosaic.ValueIdx

/-- The padding value: the integer zero converted, which at the ideal values is 0. -/
private theorem padval (i : S_.Idx) : val_main_call0_v0 (F := Ideal) i = 0 := by
  show ((((0#32 : BitVec 32).toInt : ℤ) : ℝ) : EReal) = 0
  simp

/-- The padded image read at coordinates is the bordered activation. -/
private theorem v0_apply (x : FVec Ideal S1x128x256x256 .f32) (c : Fin 128) (i j : Fin 258) :
    val_main_v0 (F := Ideal) x (ix4 (0 : Fin 1) c i j) = border x c.val i.val j.val := by
  have hc := c.isLt
  have hi := i.isLt
  have hj := j.isLt
  unfold border
  split
  · next h =>
    unfold val_main_v0
    refine (pad_apply_of_inside _ _ _ x _ _ _ (ix4 (0 : Fin 1) c i j)
      (ix4 (0 : Fin 1) (⟨c.val, h.1⟩ : Fin 128) (⟨i.val - 1, by omega⟩ : Fin 256) (⟨j.val - 1, by omega⟩ : Fin 256))
      (fun a => ?_)).trans ?_
    · match a with
      | ⟨0, _⟩ => rfl
      | ⟨1, _⟩ => show c.val = 0 + c.val * (0 + 1); omega
      | ⟨2, _⟩ => show i.val = 1 + (i.val - 1) * (0 + 1); omega
      | ⟨3, _⟩ => show j.val = 1 + (j.val - 1) * (0 + 1); omega
    · rfl
  · next h =>
    unfold val_main_v0
    by_cases hi2 : 1 ≤ i.val ∧ i.val ≤ 256
    · refine (pad_apply_of_not_inside _ _ _ x _ _ _ (ix4 (0 : Fin 1) c i j) (⟨3, by decide⟩ : Fin 4) ?_).trans (padval _)
      intro hin
      have h1 : 1 ≤ j.val := hin.1
      have h3 : (j.val - 1) / (0 + 1) < 256 := hin.2.2
      omega
    · refine (pad_apply_of_not_inside _ _ _ x _ _ _ (ix4 (0 : Fin 1) c i j) (⟨2, by decide⟩ : Fin 4) ?_).trans (padval _)
      intro hin
      have h1 : 1 ≤ i.val := hin.1
      have h3 : (i.val - 1) / (0 + 1) < 256 := hin.2.2
      omega

/-- The same with the index's coordinates given by equations. -/
private theorem v0_at (x : FVec Ideal S1x128x256x256 .f32) (q : S1x128x258x258.Idx) (c i j : Nat)
    (h1 : (q 1).val = c) (h2 : (q 2).val = i) (h3 : (q 3).val = j) :
    val_main_v0 (F := Ideal) x q = border x c i j := by
  subst h1 h2 h3
  have h0 : (q 0).val < 1 := (q 0).isLt
  have e0 : q 0 = (0 : Fin 1) := Fin.ext (by show (q 0).val = 0; omega)
  have e : q = ix4 (0 : Fin 1) (q 1) (q 2) (q 3) := by
    funext a
    match a with
    | ⟨0, _⟩ => exact e0
    | ⟨1, _⟩ => rfl
    | ⟨2, _⟩ => rfl
    | ⟨3, _⟩ => rfl
  rw [e]
  exact v0_apply x (q 1) (q 2) (q 3)

/-- Piece 0 of the stack: the slice at offsets (0, 0). -/
private theorem p0 (x : FVec Ideal S1x128x256x256 .f32) (c : Fin 128) (h w : Fin 256) :
    val_main_v10 (F := Ideal) x (ix5 (0 : Fin 1) c (0 : Fin 1) h w) = border x c.val (h.val + 0) (w.val + 0) := by
  rw [val_main_v10_apply, val_main_v1_apply]
  exact v0_at x _ _ _ _ rfl rfl rfl

/-- Piece 1: offsets (0, 1). -/
private theorem p1 (x : FVec Ideal S1x128x256x256 .f32) (c : Fin 128) (h w : Fin 256) :
    val_main_v11 (F := Ideal) x (ix5 (0 : Fin 1) c (0 : Fin 1) h w) = border x c.val (h.val + 0) (w.val + 1) := by
  rw [val_main_v11_apply, val_main_v2_apply]
  exact v0_at x _ _ _ _ rfl rfl (Nat.add_comm 1 w.val)

/-- Piece 2: offsets (0, 2). -/
private theorem p2 (x : FVec Ideal S1x128x256x256 .f32) (c : Fin 128) (h w : Fin 256) :
    val_main_v12 (F := Ideal) x (ix5 (0 : Fin 1) c (0 : Fin 1) h w) = border x c.val (h.val + 0) (w.val + 2) := by
  rw [val_main_v12_apply, val_main_v3_apply]
  exact v0_at x _ _ _ _ rfl rfl (Nat.add_comm 2 w.val)

/-- Piece 3: offsets (1, 0). -/
private theorem p3 (x : FVec Ideal S1x128x256x256 .f32) (c : Fin 128) (h w : Fin 256) :
    val_main_v13 (F := Ideal) x (ix5 (0 : Fin 1) c (0 : Fin 1) h w) = border x c.val (h.val + 1) (w.val + 0) := by
  rw [val_main_v13_apply, val_main_v4_apply]
  exact v0_at x _ _ _ _ rfl (Nat.add_comm 1 h.val) rfl

/-- Piece 4: offsets (1, 1). -/
private theorem p4 (x : FVec Ideal S1x128x256x256 .f32) (c : Fin 128) (h w : Fin 256) :
    val_main_v14 (F := Ideal) x (ix5 (0 : Fin 1) c (0 : Fin 1) h w) = border x c.val (h.val + 1) (w.val + 1) := by
  rw [val_main_v14_apply, val_main_v5_apply]
  exact v0_at x _ _ _ _ rfl (Nat.add_comm 1 h.val) (Nat.add_comm 1 w.val)

/-- Piece 5: offsets (1, 2). -/
private theorem p5 (x : FVec Ideal S1x128x256x256 .f32) (c : Fin 128) (h w : Fin 256) :
    val_main_v15 (F := Ideal) x (ix5 (0 : Fin 1) c (0 : Fin 1) h w) = border x c.val (h.val + 1) (w.val + 2) := by
  rw [val_main_v15_apply, val_main_v6_apply]
  exact v0_at x _ _ _ _ rfl (Nat.add_comm 1 h.val) (Nat.add_comm 2 w.val)

/-- Piece 6: offsets (2, 0). -/
private theorem p6 (x : FVec Ideal S1x128x256x256 .f32) (c : Fin 128) (h w : Fin 256) :
    val_main_v16 (F := Ideal) x (ix5 (0 : Fin 1) c (0 : Fin 1) h w) = border x c.val (h.val + 2) (w.val + 0) := by
  rw [val_main_v16_apply, val_main_v7_apply]
  exact v0_at x _ _ _ _ rfl (Nat.add_comm 2 h.val) rfl

/-- Piece 7: offsets (2, 1). -/
private theorem p7 (x : FVec Ideal S1x128x256x256 .f32) (c : Fin 128) (h w : Fin 256) :
    val_main_v17 (F := Ideal) x (ix5 (0 : Fin 1) c (0 : Fin 1) h w) = border x c.val (h.val + 2) (w.val + 1) := by
  rw [val_main_v17_apply, val_main_v8_apply]
  exact v0_at x _ _ _ _ rfl (Nat.add_comm 2 h.val) (Nat.add_comm 1 w.val)

/-- Piece 8: offsets (2, 2). -/
private theorem p8 (x : FVec Ideal S1x128x256x256 .f32) (c : Fin 128) (h w : Fin 256) :
    val_main_v18 (F := Ideal) x (ix5 (0 : Fin 1) c (0 : Fin 1) h w) = border x c.val (h.val + 2) (w.val + 2) := by
  rw [val_main_v18_apply, val_main_v9_apply]
  exact v0_at x _ _ _ _ rfl (Nat.add_comm 2 h.val) (Nat.add_comm 2 w.val)

/-- The stack of the nine shifted slices read at (0, c, kk, h, w): tap kk is the bordered activation moved by
    (kk / 3, kk % 3). -/
private theorem v19_apply (x : FVec Ideal S1x128x256x256 .f32) (c : Fin 128) (kk : Fin 9) (h w : Fin 256) :
    val_main_v19 (F := Ideal) x (ix5 (0 : Fin 1) c kk h w)
      = border x c.val (h.val + kk.val / 3) (w.val + kk.val % 3) := by
  unfold val_main_v19
  have hi : ∀ (kk : Fin 9) (b : Fin 5), b ≠ (2 : Fin 5) →
      ((ix5 (0 : Fin 1) c (0 : Fin 1) h w) b).val = ((ix5 (0 : Fin 1) c kk h w) b).val := by
    intro kk b hb
    match b with
    | ⟨0, _⟩ => rfl
    | ⟨1, _⟩ => rfl
    | ⟨2, _⟩ => exact absurd rfl hb
    | ⟨3, _⟩ => rfl
    | ⟨4, _⟩ => rfl
  obtain ⟨n, hn⟩ := kk
  show _ = border x c.val (h.val + n / 3) (w.val + n % 3)
  have hcases : n = 0 ∨ n = 1 ∨ n = 2 ∨ n = 3 ∨ n = 4 ∨ n = 5 ∨ n = 6 ∨ n = 7 ∨ n = 8 := by omega
  rcases hcases with rfl | rfl | rfl | rfl | rfl | rfl | rfl | rfl | rfl
  · exact (concatenate_apply_piece _ _ _ (ix5 (0 : Fin 1) c (⟨0, hn⟩ : Fin 9) h w) 0 (by show (0 : Nat) < 9; omega)
      S1x128x1x256x256 (val_main_v10 (F := Ideal) x) rfl rfl 0 rfl (ix5 (0 : Fin 1) c (0 : Fin 1) h w)
      (fun b hb => hi _ b hb) rfl).trans (p0 x c h w)
  · exact (concatenate_apply_piece _ _ _ (ix5 (0 : Fin 1) c (⟨1, hn⟩ : Fin 9) h w) 1 (by show (1 : Nat) < 9; omega)
      S1x128x1x256x256 (val_main_v11 (F := Ideal) x) rfl rfl 1 rfl (ix5 (0 : Fin 1) c (0 : Fin 1) h w)
      (fun b hb => hi _ b hb) rfl).trans (p1 x c h w)
  · exact (concatenate_apply_piece _ _ _ (ix5 (0 : Fin 1) c (⟨2, hn⟩ : Fin 9) h w) 2 (by show (2 : Nat) < 9; omega)
      S1x128x1x256x256 (val_main_v12 (F := Ideal) x) rfl rfl 2 rfl (ix5 (0 : Fin 1) c (0 : Fin 1) h w)
      (fun b hb => hi _ b hb) rfl).trans (p2 x c h w)
  · exact (concatenate_apply_piece _ _ _ (ix5 (0 : Fin 1) c (⟨3, hn⟩ : Fin 9) h w) 3 (by show (3 : Nat) < 9; omega)
      S1x128x1x256x256 (val_main_v13 (F := Ideal) x) rfl rfl 3 rfl (ix5 (0 : Fin 1) c (0 : Fin 1) h w)
      (fun b hb => hi _ b hb) rfl).trans (p3 x c h w)
  · exact (concatenate_apply_piece _ _ _ (ix5 (0 : Fin 1) c (⟨4, hn⟩ : Fin 9) h w) 4 (by show (4 : Nat) < 9; omega)
      S1x128x1x256x256 (val_main_v14 (F := Ideal) x) rfl rfl 4 rfl (ix5 (0 : Fin 1) c (0 : Fin 1) h w)
      (fun b hb => hi _ b hb) rfl).trans (p4 x c h w)
  · exact (concatenate_apply_piece _ _ _ (ix5 (0 : Fin 1) c (⟨5, hn⟩ : Fin 9) h w) 5 (by show (5 : Nat) < 9; omega)
      S1x128x1x256x256 (val_main_v15 (F := Ideal) x) rfl rfl 5 rfl (ix5 (0 : Fin 1) c (0 : Fin 1) h w)
      (fun b hb => hi _ b hb) rfl).trans (p5 x c h w)
  · exact (concatenate_apply_piece _ _ _ (ix5 (0 : Fin 1) c (⟨6, hn⟩ : Fin 9) h w) 6 (by show (6 : Nat) < 9; omega)
      S1x128x1x256x256 (val_main_v16 (F := Ideal) x) rfl rfl 6 rfl (ix5 (0 : Fin 1) c (0 : Fin 1) h w)
      (fun b hb => hi _ b hb) rfl).trans (p6 x c h w)
  · exact (concatenate_apply_piece _ _ _ (ix5 (0 : Fin 1) c (⟨7, hn⟩ : Fin 9) h w) 7 (by show (7 : Nat) < 9; omega)
      S1x128x1x256x256 (val_main_v17 (F := Ideal) x) rfl rfl 7 rfl (ix5 (0 : Fin 1) c (0 : Fin 1) h w)
      (fun b hb => hi _ b hb) rfl).trans (p7 x c h w)
  · exact (concatenate_apply_piece _ _ _ (ix5 (0 : Fin 1) c (⟨8, hn⟩ : Fin 9) h w) 8 (by show (8 : Nat) < 9; omega)
      S1x128x1x256x256 (val_main_v18 (F := Ideal) x) rfl rfl 8 rfl (ix5 (0 : Fin 1) c (0 : Fin 1) h w)
      (fun b hb => hi _ b hb) rfl).trans (p8 x c h w)

/-- The patches as [1, 1152, 65536], read at (0, r, l): row r is channel r / 9 and tap r % 9, and the flat location l
    is row l / 256 and column l % 256. -/
private theorem v20_apply' (x : FVec Ideal S1x128x256x256 .f32) (r : Fin 1152) (l : Fin 65536) :
    val_main_v20 (F := Ideal) x (ix3 (0 : Fin 1) r l)
      = border x (r.val / 9) (l.val / 256 + r.val % 9 / 3) (l.val % 256 + r.val % 9 % 3) := by
  have hr := r.isLt
  have hl := l.isLt
  rw [val_main_v20_apply]
  have e : idx_main_v20 (ix3 (0 : Fin 1) r l)
      = ix5 (0 : Fin 1) (⟨r.val / 9, by omega⟩ : Fin 128) (⟨r.val % 9, by omega⟩ : Fin 9)
          (⟨l.val / 256, by omega⟩ : Fin 256) (⟨l.val % 256, by omega⟩ : Fin 256) := by
    funext a
    refine Fin.ext ?_
    match a with
    | ⟨0, _⟩ => rfl
    | ⟨1, _⟩ => show ((0 * 1152 + r.val) * 65536 + l.val) / 589824 % 128 = r.val / 9; omega
    | ⟨2, _⟩ => show ((0 * 1152 + r.val) * 65536 + l.val) / 65536 % 9 = r.val % 9; omega
    | ⟨3, _⟩ => show ((0 * 1152 + r.val) * 65536 + l.val) / 256 % 256 = l.val / 256; omega
    | ⟨4, _⟩ => show ((0 * 1152 + r.val) * 65536 + l.val) % 256 = l.val % 256; omega
  rw [e]
  exact v19_apply x _ _ _ _

/-- The transposed patches, [1, 65536, 1152], read at (0, l, r). -/
private theorem v21_apply' (x : FVec Ideal S1x128x256x256 .f32) (l : Fin 65536) (r : Fin 1152) :
    val_main_v21 (F := Ideal) x (ix3 (0 : Fin 1) l r)
      = border x (r.val / 9) (l.val / 256 + r.val % 9 / 3) (l.val % 256 + r.val % 9 % 3) := by
  rw [val_main_v21_apply]
  have e : idx_main_v21 (ix3 (0 : Fin 1) l r) = ix3 (0 : Fin 1) r l := by
    funext a
    match a with
    | ⟨0, _⟩ => rfl
    | ⟨1, _⟩ => rfl
    | ⟨2, _⟩ => rfl
  rw [e]
  exact v20_apply' x r l

/-- The raw re-reading of the transposed patches as [1, 128, 65536, 9] at (0, co, p, k): input channel p % 128,
    tap k, around row 2·co + p / 32768 and column (p / 128) % 256. -/
private theorem v22_apply' (x : FVec Ideal S1x128x256x256 .f32) (co : Fin 128) (p : Fin 65536) (k : Fin 9) :
    val_main_v22 (F := Ideal) x (ix4 (0 : Fin 1) co p k)
      = border x (p.val % 128) (2 * co.val + p.val / 32768 + k.val / 3) (p.val / 128 % 256 + k.val % 3) := by
  have hco := co.isLt
  have hp := p.isLt
  have hk := k.isLt
  rw [val_main_v22_apply]
  have e : idx_main_v22 (ix4 (0 : Fin 1) co p k)
      = ix3 (0 : Fin 1) (⟨co.val * 512 + p.val / 128, by omega⟩ : Fin 65536)
          (⟨p.val % 128 * 9 + k.val, by omega⟩ : Fin 1152) := by
    have hA : (((0 * 128 + co.val) * 65536 + p.val) * 9 + k.val) / 1152 % 65536
        = co.val * 512 + p.val / 128 := by omega
    have hB : (((0 * 128 + co.val) * 65536 + p.val) * 9 + k.val) % 1152 = p.val % 128 * 9 + k.val := by omega
    funext a
    refine Fin.ext ?_
    match a with
    | ⟨0, _⟩ => rfl
    | ⟨1, _⟩ => exact hA
    | ⟨2, _⟩ => exact hB
  rw [e, v21_apply']
  show border x ((p.val % 128 * 9 + k.val) / 9)
      ((co.val * 512 + p.val / 128) / 256 + (p.val % 128 * 9 + k.val) % 9 / 3)
      ((co.val * 512 + p.val / 128) % 256 + (p.val % 128 * 9 + k.val) % 9 % 3) = _
  have h1 : (p.val % 128 * 9 + k.val) / 9 = p.val % 128 := by omega
  have h2 : (p.val % 128 * 9 + k.val) % 9 = k.val := by omega
  have h3 : (co.val * 512 + p.val / 128) / 256 = 2 * co.val + p.val / 32768 := by omega
  have h4 : (co.val * 512 + p.val / 128) % 256 = p.val / 128 % 256 := by omega
  rw [h1, h2, h3, h4]

/-- The reference's result at (0, co, oh, ow): the final reshape reads the tap sum at location oh·256 + ow, the sum
    starts from 0, and each term is the patch entry times the broadcast weight. -/
private theorem ref_at (x : FVec Ideal S1x128x256x256 .f32) (w : FVec Ideal S65536x9 .f32)
    (co : Fin 128) (oh ow : Fin 256) :
    val_main_v27 (F := Ideal) x w (ix4 (0 : Fin 1) co oh ow) = conv x w co.val oh.val ow.val := by
  have hco := co.isLt
  have hoh := oh.isLt
  have how := ow.isLt
  rw [val_main_v27_apply, val_main_v26_apply]
  have hz : ∀ q, val_main_cst (F := Ideal) q = 0 := fun q => Ideal.ofBits_zero_f32
  rw [hz, zero_add]
  unfold conv
  refine Finset.sum_congr rfl fun k _ => ?_
  have hk := k.isLt
  have e : idx_main_v26 (idx_main_v27 (ix4 (0 : Fin 1) co oh ow)) k
      = ix4 (0 : Fin 1) co (⟨oh.val * 256 + ow.val, by omega⟩ : Fin 65536) k := by
    have hA : (((0 * 128 + co.val) * 256 + oh.val) * 256 + ow.val) / 65536 % 128 = co.val := by omega
    have hB : (((0 * 128 + co.val) * 256 + oh.val) * 256 + ow.val) % 65536 = oh.val * 256 + ow.val := by omega
    funext a
    refine Fin.ext ?_
    match a with
    | ⟨0, _⟩ => rfl
    | ⟨1, _⟩ => exact hA
    | ⟨2, _⟩ => exact hB
    | ⟨3, _⟩ => rfl
  rw [e, val_main_v25_apply, Ideal.mulf_def, v22_apply', val_main_v24_apply, val_main_v23_apply]
  have hw : w (idx_main_v23 (idx_main_v24 (ix4 (0 : Fin 1) co (⟨oh.val * 256 + ow.val, by omega⟩ : Fin 65536) k)))
      = wt w (oh.val * 256 + ow.val) k := by
    unfold wt
    rw [dif_pos (by omega : oh.val * 256 + ow.val < 65536)]
    refine congrArg w (funext fun a => ?_)
    match a with
    | ⟨0, _⟩ => rfl
    | ⟨1, _⟩ => rfl
  rw [hw]
  show border x ((oh.val * 256 + ow.val) % 128) (2 * co.val + (oh.val * 256 + ow.val) / 32768 + k.val / 3)
      ((oh.val * 256 + ow.val) / 128 % 256 + k.val % 3) * _ = _
  have h1 : (oh.val * 256 + ow.val) % 128 = ow.val % 128 := by omega
  have h2 : (oh.val * 256 + ow.val) / 32768 = oh.val / 128 := by omega
  have h3 : (oh.val * 256 + ow.val) / 128 % 256 = 2 * (oh.val % 128) + ow.val / 128 := by omega
  rw [h1, h2, h3]

/-- The reference's result array is `G` of its two arguments. -/
theorem ref_eq (x : FVec Ideal S1x128x256x256 .f32) (w : FVec Ideal S65536x9 .f32) :
    val_main_v27 (F := Ideal) x w = G x w := by
  funext i
  have h0 : (i 0).val < 1 := (i 0).isLt
  have e0 : i 0 = (0 : Fin 1) := Fin.ext (by show (i 0).val = 0; omega)
  have e : i = ix4 (0 : Fin 1) (i 1) (i 2) (i 3) := by
    funext a
    match a with
    | ⟨0, _⟩ => exact e0
    | ⟨1, _⟩ => rfl
    | ⟨2, _⟩ => rfl
    | ⟨3, _⟩ => rfl
  rw [e]
  exact ref_at x w (i 1) (i 2) (i 3)

end Cert.RefSide

end
-- ==== Proof.lean ====
/-
  A 3×3 stencil with a weight of its own per output location, computed after a raw re-reading of the unfolded
  patches that interleaves the channel axis with the two spatial ones: output (co, oh, ow) reads input channel
  ow % 128 around row 2·co + oh / 128 and column 2·(oh % 128) + ow / 128 of the zero-bordered image, and sums its nine
  taps against weights[oh·256 + ow, ·] (Proof/Spec.lean, `Cert.Conv.G`).

  The reference builds the nine shifted copies of the padded image, stacks them, transposes, re-reads the flat buffer
  as [1, 128, 65536, 9] and sums the products with the weights over the last axis; that the re-reading lands on the
  interleaved coordinates is arithmetic on flat positions (Proof/RefSide.lean).
  The kernel walks the output channels four at a time. For those it needs image rows 8t … 8t + 7 of every channel and
  one borrowed row on each side, which the host gathers beforehand out of the row-padded image; inside a step the
  ten-row window is shifted by one column either way with a zero column filled in, the nine taps of each output row
  half are stacked, the channel axis and the column axis are interleaved, and the stack is multiplied by the matching
  half of the tap-major weights and summed over the taps (Proof/BodyDefs.lean, TapSum.lean, Halo.lean, Stores.lean:
  a step's block is the nine-tap sum of its window; Proof/HostPrefix.lean: what the four input arrays hold;
  Proof/KernelValue.lean: the 32 blocks tile the result).
  Both sides are the same finite sum of the same products at every entry, so the extended reals need no law beyond
  that, and the inputs' finiteness is not used. The ideal pass rewrote nothing, so `preserves` is `True`.
-/
import proofs.«158289_j47132971106931_1_alg».proof.Defs
import proofs.«158289_j47132971106931_1_alg».proof.Proof.Gen.Kernel
import proofs.«158289_j47132971106931_1_alg».proof.Proof.Gen.Kernel.Skeleton
import proofs.«158289_j47132971106931_1_alg».proof.Proof.Gen.Kernel.Launch
import proofs.«158289_j47132971106931_1_alg».proof.Proof.Gen.Kernel.Points
import proofs.«158289_j47132971106931_1_alg».proof.Proof.Gen.Kernel.Frame
import proofs.«158289_j47132971106931_1_alg».proof.Proof.Gen.KernelIdeal
import proofs.«158289_j47132971106931_1_alg».proof.Proof.Gen.KernelIdeal.Skeleton
import proofs.«158289_j47132971106931_1_alg».proof.Proof.Gen.KernelIdeal.Launch
import proofs.«158289_j47132971106931_1_alg».proof.Proof.Gen.KernelIdeal.Points
import proofs.«158289_j47132971106931_1_alg».proof.Proof.Gen.KernelIdeal.Frame
import proofs.«158289_j47132971106931_1_alg».proof.Proof.Gen.ReferenceIdeal
import proofs.«158289_j47132971106931_1_alg».proof.Proof.Gen.Pre_finite_inputs
import proofs.«158289_j47132971106931_1_alg».proof.Proof.Gen.ReferenceIdeal.Run
import proofs.«158289_j47132971106931_1_alg».proof.Proof.Gen.ReferenceIdeal.Read
import proofs.«158289_j47132971106931_1_alg».proof.Proof.KernelValue
import proofs.«158289_j47132971106931_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the interleaved stencil of the arguments: the kernel's run read block by block, the
    reference's run read operation by operation, from memories that agree on the two arguments. -/
theorem algebraic : Cert.algebraic_KernelIdeal_ReferenceIdeal := by
  intro m ρ m' ρ' _ hagree
  refine ⟨fun c => Cert.Conv.G (Cert.KernelIdeal.Pre.X m c) (Cert.KernelIdeal.Pre.Wt m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefSide.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
